-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S227x1024 .f32 .bf16
  ∧ IdealRules.truncf_extf.Statement Cert.KernelIdeal.S227x1024 .f32 .bf16
  ∧ IdealRules.truncf_extf.Statement Cert.KernelIdeal.S227x1024 .f32 .bf16
  ∧ IdealRules.truncf_extf.Statement Cert.KernelIdeal.S227x1024 .f32 .bf16
  ∧ IdealRules.truncf_extf.Statement Cert.KernelIdeal.S227x1024 .f32 .bf16
  ∧ IdealRules.truncf_extf.Statement Cert.KernelIdeal.S227x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x3 : Shape := ⟨3, ![1024, 1024, 3]⟩
abbrev S1024x4 : Shape := ⟨2, ![1024, 4]⟩
abbrev S_ : Shape := ⟨0, ![]⟩

class Facts : Prop where
  bcast_S_S1024x1024x3 : S_.BroadcastsInDim S1024x1024x3 (![] : Fin 0 → Fin S1024x1024x3.rank)
  reducesTo_S1024x1024x3_S_d0_1_2 : S1024x1024x3.ReducesTo [0, 1, 2] S_
  h_S_ : 0 < S_.numel

variable [Facts]

def fn {F : FTy → Type} [FloatOps F] (main_arg0 : FVec F S1024x1024x3 .f32) (main_arg1 : IVec S1024x4 32) : IVec S_ 1 :=
  let main_v0 : FVec F S1024x1024x3 .f32 := Host.absf main_arg0
  let main_cst : FVec F S_ .f32 := constant S_ .f32 0x7F800000#32
  let main_v1 : FVec F S1024x1024x3 .f32 := broadcastInDim S1024x1024x3 ![] bcast_S_S1024x1024x3 main_cst
  let main_v2 : IVec S1024x1024x3 1 := cmpf .olt main_v0 main_v1
  let main_c : IVec S_ 1 := constantI S_ 1 1#1
  let main_v3 : IVec S_ 1 := (fun x v => Host.reduce IntOp.andi x v reducesTo_S1024x1024x3_S_d0_1_2 h_S_) main_v2 main_c
  main_v3
-- ==== Kernel.lean ====
abbrev S1024x1024x3 : Shape := ⟨3, ![1024, 1024, 3]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S227 : Shape := ⟨1, ![227]⟩
abbrev S1x227 : Shape := ⟨2, ![1, 227]⟩
abbrev S1024x227 : Shape := ⟨2, ![1024, 227]⟩
abbrev S1024x1x227 : Shape := ⟨3, ![1024, 1, 227]⟩
abbrev S1024x3x1024 : Shape := ⟨3, ![1024, 3, 1024]⟩
abbrev S1024x3072 : Shape := ⟨2, ![1024, 3072]⟩
abbrev S1024x3x227x227 : Shape := ⟨4, ![1024, 3, 227, 227]⟩
abbrev S1x1x227 : Shape := ⟨3, ![1, 1, 227]⟩
abbrev S1x3x227x227 : Shape := ⟨4, ![1, 3, 227, 227]⟩
abbrev S227x1024 : Shape := ⟨2, ![227, 1024]⟩
abbrev S227x1 : Shape := ⟨2, ![227, 1]⟩
abbrev S227x3072 : Shape := ⟨2, ![227, 3072]⟩
abbrev S227x227 : Shape := ⟨2, ![227, 227]⟩
abbrev S1x1x227x227 : Shape := ⟨4, ![1, 1, 227, 227]⟩

abbrev nBuf : Space → Nat
  | .hbm => 119
  | .vmem => 9
  | .smem => 0
  | _ => 0

abbrev bufTy : (tb : Table) → Fin (tcTables nBuf tb) → BufTy
  | .hbm, ⟨0, _⟩ => ⟨S1024x1024x3, .f32⟩
  | .hbm, ⟨1, _⟩ => ⟨S1024x4, .i32⟩
  | .hbm, ⟨2, _⟩ => ⟨S1024x1, .i32⟩
  | .hbm, ⟨3, _⟩ => ⟨S1024, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S227, .i32⟩
  | .hbm, ⟨37, _⟩ => ⟨S1024x1, .i32⟩
  | .hbm, ⟨38, _⟩ => ⟨S1x227, .i32⟩
  | .hbm, ⟨39, _⟩ => ⟨S1024, .i32⟩
  | .hbm, ⟨40, _⟩ => ⟨S1024x1, .i32⟩
  | .hbm, ⟨41, _⟩ => ⟨S1024x227, .i32⟩
  | .hbm, ⟨42, _⟩ => ⟨S1024x227, .i32⟩
  | .hbm, ⟨43, _⟩ => ⟨S1024x227, .i32⟩
  | .hbm, ⟨44, _⟩ => ⟨S_, .i32⟩
  | .hbm, ⟨45, _⟩ => ⟨S_, .i32⟩
  | .hbm, ⟨46, _⟩ => ⟨S1024x227, .i32⟩
  | .hbm, ⟨47, _⟩ => ⟨S1024x227, .i32⟩
  | .hbm, ⟨48, _⟩ => ⟨S1024x227, .i32⟩
  | .hbm, ⟨49, _⟩ => ⟨S_, .i32⟩
  | .hbm, ⟨50, _⟩ => ⟨S1024x227, .i32⟩
  | .hbm, ⟨51, _⟩ => ⟨S1024x227, .i1⟩
  | .hbm, ⟨52, _⟩ => ⟨S1024x227, .i32⟩
  | .hbm, ⟨53, _⟩ => ⟨S1024x227, .i32⟩
  | .hbm, ⟨54, _⟩ => ⟨S_, .i32⟩
  | .hbm, ⟨55, _⟩ => ⟨S1024x227, .i32⟩
  | .hbm, ⟨56, _⟩ => ⟨S1024x227, .i1⟩
  | .hbm, ⟨57, _⟩ => ⟨S1024x227, .i1⟩
  | .hbm, ⟨58, _⟩ => ⟨S_, .i32⟩
  | .hbm, ⟨59, _⟩ => ⟨S1024x227, .i32⟩
  | .hbm, ⟨60, _⟩ => ⟨S1024x227, .i32⟩
  | .hbm, ⟨61, _⟩ => ⟨S1024x227, .i32⟩
  | .hbm, ⟨62, _⟩ => ⟨S1024x227, .i32⟩
  | .hbm, ⟨63, _⟩ => ⟨S1024x227, .i32⟩
  | .hbm, ⟨64, _⟩ => ⟨S1024x1, .i32⟩
  | .hbm, ⟨65, _⟩ => ⟨S1x227, .i32⟩
  | .hbm, ⟨66, _⟩ => ⟨S1024, .i32⟩
  | .hbm, ⟨67, _⟩ => ⟨S1024x1, .i32⟩
  | .hbm, ⟨68, _⟩ => ⟨S1024x227, .i32⟩
  | .hbm, ⟨69, _⟩ => ⟨S1024x227, .i32⟩
  | .hbm, ⟨70, _⟩ => ⟨S1024x227, .i32⟩
  | .hbm, ⟨71, _⟩ => ⟨S_, .i32⟩
  | .hbm, ⟨72, _⟩ => ⟨S_, .i32⟩
  | .hbm, ⟨73, _⟩ => ⟨S1024x227, .i32⟩
  | .hbm, ⟨74, _⟩ => ⟨S1024x227, .i32⟩
  | .hbm, ⟨75, _⟩ => ⟨S1024x227, .i32⟩
  | .hbm, ⟨76, _⟩ => ⟨S_, .i32⟩
  | .hbm, ⟨77, _⟩ => ⟨S1024x227, .i32⟩
  | .hbm, ⟨78, _⟩ => ⟨S1024x227, .i1⟩
  | .hbm, ⟨79, _⟩ => ⟨S1024x227, .i32⟩
  | .hbm, ⟨80, _⟩ => ⟨S1024x227, .i32⟩
  | .hbm, ⟨81, _⟩ => ⟨S_, .i32⟩
  | .hbm, ⟨82, _⟩ => ⟨S1024x227, .i32⟩
  | .hbm, ⟨83, _⟩ => ⟨S1024x227, .i1⟩
  | .hbm, ⟨84, _⟩ => ⟨S1024x227, .i1⟩
  | .hbm, ⟨85, _⟩ => ⟨S_, .i32⟩
  | .hbm, ⟨86, _⟩ => ⟨S1024x227, .i32⟩
  | .hbm, ⟨87, _⟩ => ⟨S1024x227, .i32⟩
  | .hbm, ⟨88, _⟩ => ⟨S1024x227, .i32⟩
  | .hbm, ⟨89, _⟩ => ⟨S1024x227, .i32⟩
  | .hbm, ⟨90, _⟩ => ⟨S1024x227, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S1024x227, .i32⟩
  | .hbm, ⟨95, _⟩ => ⟨S1024x227, .i32⟩
  | .hbm, ⟨96, _⟩ => ⟨S_, .i32⟩
  | .hbm, ⟨97, _⟩ => ⟨S1024x227, .i32⟩
  | .hbm, ⟨98, _⟩ => ⟨S1024x227, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S1024x227, .i32⟩
  | .hbm, ⟨103, _⟩ => ⟨S1024x227, .i32⟩
  | .hbm, ⟨104, _⟩ => ⟨S_, .i32⟩
  | .hbm, ⟨105, _⟩ => ⟨S1024x227, .i32⟩
  | .hbm, ⟨106, _⟩ => ⟨S1024x227, .i32⟩
  | .hbm, ⟨107, _⟩ => ⟨S1024x1x227, .i32⟩
  | .hbm, ⟨108, _⟩ => ⟨S1024x1x227, .i32⟩
  | .hbm, ⟨109, _⟩ => ⟨S1024x3x1024, .f32⟩
  | .hbm, ⟨110, _⟩ => ⟨S1024x3072, .f32⟩
  | .hbm, ⟨111, _⟩ => ⟨S1024x3072, .bf16⟩
  | .hbm, ⟨112, _⟩ => ⟨S1024x3072, .f32⟩
  | .hbm, ⟨113, _⟩ => ⟨S1024x3072, .f32⟩
  | .hbm, ⟨114, _⟩ => ⟨S1024x3072, .bf16⟩
  | .hbm, ⟨115, _⟩ => ⟨S1024x3072, .f32⟩
  | .hbm, ⟨116, _⟩ => ⟨S1024x3072, .f32⟩
  | .hbm, ⟨117, _⟩ => ⟨S1024x3072, .bf16⟩
  | .hbm, ⟨118, _⟩ => ⟨S1024x3x227x227, .f32⟩
  | .local _ .vmem, ⟨0, _⟩ => ⟨S1x1x227, .i32⟩
  | .local _ .vmem, ⟨1, _⟩ => ⟨S1x1x227, .i32⟩
  | .local _ .vmem, ⟨2, _⟩ => ⟨S1x1x227, .i32⟩
  | .local _ .vmem, ⟨3, _⟩ => ⟨S1x1x227, .i32⟩
  | .local _ .vmem, ⟨4, _⟩ => ⟨S1024x3072, .bf16⟩
  | .local _ .vmem, ⟨5, _⟩ => ⟨S1024x3072, .bf16⟩
  | .local _ .vmem, ⟨6, _⟩ => ⟨S1024x3072, .bf16⟩
  | .local _ .vmem, ⟨7, _⟩ => ⟨S1x3x227x227, .f32⟩
  | .local _ .vmem, ⟨8, _⟩ => ⟨S1x3x227x227, .f32⟩
  | _, _ => ⟨S1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_9 : Ref sig .tc := ⟨.hbm, 91, rfl⟩
abbrev main_c_10 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v47 : Ref sig .tc := ⟨.hbm, 98, rfl⟩
abbrev main_c_11 : Ref sig .tc := ⟨.hbm, 99, rfl⟩
abbrev main_c_12 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x227 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x227 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x227x227 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S227_S1x227_1 : S227.BroadcastsInDim S1x227 (![1] : Fin 1 → Fin S1x227.rank)
  bcast_S1x227_S1024x227_0_1 : S1x227.BroadcastsInDim S1024x227 (![0, 1] : Fin 2 → Fin S1024x227.rank)
  bcast_S1024x1_S1024x227_0_1 : S1024x1.BroadcastsInDim S1024x227 (![0, 1] : Fin 2 → Fin S1024x227.rank)
  bcast_S_S1024x227 : S_.BroadcastsInDim S1024x227 (![] : Fin 0 → Fin S1024x227.rank)
  shapeCasts_S1024x227_S1024x1x227 : S1024x227.ShapeCasts S1024x1x227
  transposes_S1024x1024x3_S1024x3x1024_1_2_0 : S1024x1024x3.Transposes [1, 2, 0] S1024x3x1024
  shapeCasts_S1024x3x1024_S1024x3072 : S1024x3x1024.ShapeCasts S1024x3072
  bitsLt_bf16_f32 : FTy.bits .bf16 < FTy.bits .f32
  inb_S1x1x227_S1x1x227_0_0_0 : ∀ a, (![0, 0, 0] : Fin 3 → Nat) a + S1x1x227.size a ≤ S1x1x227.size a
  h_S1x1x227 : 0 < S1x1x227.numel
  shapeCasts_S1x1x227_S227 : S1x1x227.ShapeCasts S227
  iota_S227x1024_d1_w32 : S227x1024.Iotas .tc 32 [1]
  shapeCasts_S227_S227x1 : S227.ShapeCasts S227x1
  broadcasts_S227x1_S227x1024 : S227x1.Broadcasts S227x1024
  natLt_1_32 : 1 < 32
  iota_S1024x227_d0_w32 : S1024x227.Iotas .tc 32 [0]
  shapeCasts_S227_S1x227 : S227.ShapeCasts S1x227
  broadcasts_S1x227_S1024x227 : S1x227.Broadcasts S1024x227
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S227x3072_o0_0_S227x1024 : S227x3072.Slices ![0, 0] S227x1024
  inb_S1x3x227x227_S1x1x227x227_0_0_0_0 : ∀ a, (![0, 0, 0, 0] : Fin 4 → Nat) a + S1x1x227x227.size a ≤ S1x3x227x227.size a
  h_S1x1x227x227 : 0 < S1x1x227x227.numel
  shapeCasts_S1x1x227x227_S227x227 : S1x1x227x227.ShapeCasts S227x227
  shapeCasts_S227x227_S1x1x227x227 : S227x227.ShapeCasts S1x1x227x227
  slices_S227x3072_o0_1024_S227x1024 : S227x3072.Slices ![0, 1024] S227x1024
  inb_S1x3x227x227_S1x1x227x227_0_1_0_0 : ∀ a, (![0, 1, 0, 0] : Fin 4 → Nat) a + S1x1x227x227.size a ≤ S1x3x227x227.size a
  slices_S227x3072_o0_2048_S227x1024 : S227x3072.Slices ![0, 2048] S227x1024
  inb_S1x3x227x227_S1x1x227x227_0_2_0_0 : ∀ a, (![0, 2, 0, 0] : Fin 4 → Nat) a + S1x1x227x227.size a ≤ S1x3x227x227.size a
  dot_S227x1024_S1024x3072_S227x3072_1_0_0_1_n_n_wf : DotDims.WF S227x1024 S1024x3072 S227x3072 [1] [0] [0] [1] [] []
  dot_S227x1024_S1024x227_S227x227_1_0_0_1_n_n_wf : DotDims.WF S227x1024 S1024x227 S227x227 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x227.size a ≤ S1024x1x227.size a
  hwx0_0 : ∀ i : grid0.Coords, EltTy.bits .i32 = 32 ∨ (Rect.block (s := S1024x1x227) S1x1x227.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x227.size a ≤ S1024x1x227.size a
  hwx0_1 : ∀ i : grid0.Coords, EltTy.bits .i32 = 32 ∨ (Rect.block (s := S1024x1x227) S1x1x227.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x227x227.size a ≤ S1024x3x227x227.size a
  hwx0_5 : ∀ i : grid0.Coords, EltTy.bits .f32 = 32 ∨ (Rect.block (s := S1024x3x227x227) S1x3x227x227.size (cc0_transform_5 i) (hinb0_5 i)).WholeWords (EltTy.packing .f32)

variable [Facts₀]

def dot_S227x1024_S1024x3072_S227x3072_1_0_0_1_n_n : DotDims S227x1024 S1024x3072 S227x3072 where
  lhsContracting := [1]
  rhsContracting := [0]
  lhsNonContracting := [0]
  rhsNonContracting := [1]
  lhsBatch := []
  rhsBatch := []
  wf := dot_S227x1024_S1024x3072_S227x3072_1_0_0_1_n_n_wf
def dot_S227x1024_S1024x227_S227x227_1_0_0_1_n_n : DotDims S227x1024 S1024x227 S227x227 where
  lhsContracting := [1]
  rhsContracting := [0]
  lhsNonContracting := [0]
  rhsNonContracting := [1]
  lhsBatch := []
  rhsBatch := []
  wf := dot_S227x1024_S1024x227_S227x227_1_0_0_1_n_n_wf

abbrev win0_0 : Pipeline.Window sig grid0 :=
  Pipeline.Window.ofSpec (Memref.whole main_v49) S1x1x227.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x1x227.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S1x3x227x227.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1024x3 : Shape := ⟨3, ![1024, 1024, 3]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S227 : Shape := ⟨1, ![227]⟩
abbrev S1x227 : Shape := ⟨2, ![1, 227]⟩
abbrev S1024x227 : Shape := ⟨2, ![1024, 227]⟩
abbrev S1024x1x227 : Shape := ⟨3, ![1024, 1, 227]⟩
abbrev S1024x227x1 : Shape := ⟨3, ![1024, 227, 1]⟩
abbrev S1024x227x227 : Shape := ⟨3, ![1024, 227, 227]⟩
abbrev S1024x227x227x1 : Shape := ⟨4, ![1024, 227, 227, 1]⟩
abbrev S1024x227x227x2 : Shape := ⟨4, ![1024, 227, 227, 2]⟩
abbrev S1024x227x227x3 : Shape := ⟨4, ![1024, 227, 227, 3]⟩
abbrev S1024x3x227x227 : Shape := ⟨4, ![1024, 3, 227, 227]⟩

abbrev nBuf : Space → Nat
  | .hbm => 130
  | .vmem => 0
  | .smem => 0
  | _ => 0

abbrev hbmTy0_0 (i : Nat) : BufTy := match i % 128 with
  | 0 => ⟨S1024x1024x3, .f32⟩
  | 1 => ⟨S1024x4, .i32⟩
  | 2 => ⟨S1024x1, .i32⟩
  | 3 => ⟨S1024, .i32⟩
  | 4 => ⟨S1024x1, .i32⟩
  | 5 => ⟨S1024, .i32⟩
  | 6 => ⟨S1024x1, .i32⟩
  | 7 => ⟨S1024, .i32⟩
  | 8 => ⟨S1024x1, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i32⟩
  | 29 => ⟨S1024, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i32⟩
  | 36 => ⟨S227, .i32⟩
  | 37 => ⟨S1024x1, .i32⟩
  | 38 => ⟨S1x227, .i32⟩
  | 39 => ⟨S1024, .i32⟩
  | 40 => ⟨S1024x1, .i32⟩
  | 41 => ⟨S1024x227, .i32⟩
  | 42 => ⟨S1024x227, .i32⟩
  | 43 => ⟨S1024x227, .i32⟩
  | 44 => ⟨S_, .i32⟩
  | 45 => ⟨S_, .i32⟩
  | 46 => ⟨S1024x227, .i32⟩
  | 47 => ⟨S1024x227, .i32⟩
  | 48 => ⟨S1024x227, .i32⟩
  | 49 => ⟨S_, .i32⟩
  | 50 => ⟨S1024x227, .i32⟩
  | 51 => ⟨S1024x227, .i1⟩
  | 52 => ⟨S1024x227, .i32⟩
  | 53 => ⟨S1024x227, .i32⟩
  | 54 => ⟨S_, .i32⟩
  | 55 => ⟨S1024x227, .i32⟩
  | 56 => ⟨S1024x227, .i1⟩
  | 57 => ⟨S1024x227, .i1⟩
  | 58 => ⟨S_, .i32⟩
  | 59 => ⟨S1024x227, .i32⟩
  | 60 => ⟨S1024x227, .i32⟩
  | 61 => ⟨S1024x227, .i32⟩
  | 62 => ⟨S1024x227, .i32⟩
  | 63 => ⟨S1024x227, .i32⟩
  | 64 => ⟨S1024x1, .i32⟩
  | 65 => ⟨S1x227, .i32⟩
  | 66 => ⟨S1024, .i32⟩
  | 67 => ⟨S1024x1, .i32⟩
  | 68 => ⟨S1024x227, .i32⟩
  | 69 => ⟨S1024x227, .i32⟩
  | 70 => ⟨S1024x227, .i32⟩
  | 71 => ⟨S_, .i32⟩
  | 72 => ⟨S_, .i32⟩
  | 73 => ⟨S1024x227, .i32⟩
  | 74 => ⟨S1024x227, .i32⟩
  | 75 => ⟨S1024x227, .i32⟩
  | 76 => ⟨S_, .i32⟩
  | 77 => ⟨S1024x227, .i32⟩
  | 78 => ⟨S1024x227, .i1⟩
  | 79 => ⟨S1024x227, .i32⟩
  | 80 => ⟨S1024x227, .i32⟩
  | 81 => ⟨S_, .i32⟩
  | 82 => ⟨S1024x227, .i32⟩
  | 83 => ⟨S1024x227, .i1⟩
  | 84 => ⟨S1024x227, .i1⟩
  | 85 => ⟨S_, .i32⟩
  | 86 => ⟨S1024x227, .i32⟩
  | 87 => ⟨S1024x227, .i32⟩
  | 88 => ⟨S1024x227, .i32⟩
  | 89 => ⟨S1024x227, .i32⟩
  | 90 => ⟨S1024x227, .i32⟩
  | 91 => ⟨S_, .i32⟩
  | 92 => ⟨S_, .i32⟩
  | 93 => ⟨S_, .i32⟩
  | 94 => ⟨S1024x227, .i32⟩
  | 95 => ⟨S1024x227, .i32⟩
  | 96 => ⟨S_, .i32⟩
  | 97 => ⟨S1024x227, .i32⟩
  | 98 => ⟨S1024x227, .i32⟩
  | 99 => ⟨S_, .i32⟩
  | 100 => ⟨S_, .i32⟩
  | 101 => ⟨S_, .i32⟩
  | 102 => ⟨S1024x227, .i32⟩
  | 103 => ⟨S1024x227, .i32⟩
  | 104 => ⟨S_, .i32⟩
  | 105 => ⟨S1024x227, .i32⟩
  | 106 => ⟨S1024x227, .i32⟩
  | 107 => ⟨S1024x1x227, .i32⟩
  | 108 => ⟨S1024x227x1, .i32⟩
  | 109 => ⟨S_, .i32⟩
  | 110 => ⟨S1024x1x227, .i32⟩
  | 111 => ⟨S1024x1x227, .i1⟩
  | 112 => ⟨S_, .i32⟩
  | 113 => ⟨S1024x1x227, .i32⟩
  | 114 => ⟨S1024x1x227, .i32⟩
  | 115 => ⟨S1024x1x227, .i32⟩
  | 116 => ⟨S_, .i32⟩
  | 117 => ⟨S1024x227x1, .i32⟩
  | 118 => ⟨S1024x227x1, .i1⟩
  | 119 => ⟨S_, .i32⟩
  | 120 => ⟨S1024x227x1, .i32⟩
  | 121 => ⟨S1024x227x1, .i32⟩
  | 122 => ⟨S1024x227x1, .i32⟩
  | 123 => ⟨S1024x227x227, .i32⟩
  | 124 => ⟨S1024x227x227, .i32⟩
  | 125 => ⟨S1024x227x227x1, .i32⟩
  | 126 => ⟨S1024x227x227x1, .i32⟩
  | 127 => ⟨S1024x227x227x2, .i32⟩
  | _ => ⟨S1024x1024x3, .f32⟩

abbrev hbmTy0_1 (i : Nat) : BufTy := match i % 128 with
  | 0 => ⟨S1024x227x227x3, .f32⟩
  | 1 => ⟨S1024x3x227x227, .f32⟩
  | _ => ⟨S1024x1024x3, .f32⟩

abbrev hbmTy (i : Nat) : BufTy := match i / 128 with
  | 0 => hbmTy0_0 i
  | 1 => hbmTy0_1 i
  | _ => ⟨S1024x1024x3, .f32⟩

abbrev bufTy : (tb : Table) → Fin (tcTables nBuf tb) → BufTy
  | .hbm, ⟨i, _⟩ => hbmTy i
  | _, _ => ⟨S1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_9 : Ref sig .tc := ⟨.hbm, 91, rfl⟩
abbrev main_c_10 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v47 : Ref sig .tc := ⟨.hbm, 98, rfl⟩
abbrev main_c_11 : Ref sig .tc := ⟨.hbm, 99, rfl⟩
abbrev main_c_12 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_c_13 : Ref sig .tc := ⟨.hbm, 109, rfl⟩
abbrev main_v51 : Ref sig .tc := ⟨.hbm, 110, rfl⟩
abbrev main_v52 : Ref sig .tc := ⟨.hbm, 111, rfl⟩
abbrev main_c_14 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_c_15 : Ref sig .tc := ⟨.hbm, 116, rfl⟩
abbrev main_v56 : Ref sig .tc := ⟨.hbm, 117, rfl⟩
abbrev main_v57 : Ref sig .tc := ⟨.hbm, 118, rfl⟩
abbrev main_c_16 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩

abbrev nD : Nat := 1
abbrev τ : Topo := Topo.v7x

variable {F : FTy → Type} [FloatOps F]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S227_S1x227_1 : S227.BroadcastsInDim S1x227 (![1] : Fin 1 → Fin S1x227.rank)
  bcast_S1x227_S1024x227_0_1 : S1x227.BroadcastsInDim S1024x227 (![0, 1] : Fin 2 → Fin S1024x227.rank)
  bcast_S1024x1_S1024x227_0_1 : S1024x1.BroadcastsInDim S1024x227 (![0, 1] : Fin 2 → Fin S1024x227.rank)
  bcast_S_S1024x227 : S_.BroadcastsInDim S1024x227 (![] : Fin 0 → Fin S1024x227.rank)
  bcast_S1024x227_S1024x1x227_0_2 : S1024x227.BroadcastsInDim S1024x1x227 (![0, 2] : Fin 2 → Fin S1024x1x227.rank)
  bcast_S1024x227_S1024x227x1_0_1 : S1024x227.BroadcastsInDim S1024x227x1 (![0, 1] : Fin 2 → Fin S1024x227x1.rank)
  bcast_S_S1024x1x227 : S_.BroadcastsInDim S1024x1x227 (![] : Fin 0 → Fin S1024x1x227.rank)
  bcast_S_S1024x227x1 : S_.BroadcastsInDim S1024x227x1 (![] : Fin 0 → Fin S1024x227x1.rank)
  bcast_S1024x1x227_S1024x227x227_0_1_2 : S1024x1x227.BroadcastsInDim S1024x227x227 (![0, 1, 2] : Fin 3 → Fin S1024x227x227.rank)
  bcast_S1024x227x1_S1024x227x227_0_1_2 : S1024x227x1.BroadcastsInDim S1024x227x227 (![0, 1, 2] : Fin 3 → Fin S1024x227x227.rank)
  bcast_S1024x227x227_S1024x227x227x1_0_1_2 : S1024x227x227.BroadcastsInDim S1024x227x227x1 (![0, 1, 2] : Fin 3 → Fin S1024x227x227x1.rank)
  concatenates_S1024x227x227x1_S1024x227x227x1_S1024x227x227x2_d3 : Shape.Concatenates [S1024x227x227x1, S1024x227x227x1] S1024x227x227x2 3
  transposes_S1024x227x227x3_S1024x3x227x227_0_3_1_2 : S1024x227x227x3.Transposes [0, 3, 1, 2] S1024x3x227x227
  gather_S1024x1024x3_S1024x227x227x2_S1024x227x227x3_3_01_n_n_01_3_113_wf : GatherDims.WF S1024x1024x3 S1024x227x227x2 S1024x227x227x3 [3] [0, 1] [] [0, 1] [] 3 ![1, 1, 3]

variable [Facts₀]

def gather_S1024x1024x3_S1024x227x227x2_S1024x227x227x3_3_01_n_n_01_3_113 : GatherDims S1024x1024x3 S1024x227x227x2 S1024x227x227x3 where
  offsetDims := [3]
  collapsedSliceDims := [0, 1]
  operandBatchingDims := []
  startIndicesBatchingDims := []
  startIndexMap := [0, 1]
  indexVectorDim := 3
  sliceSizes := ![1, 1, 3]
  wf := gather_S1024x1024x3_S1024x227x227x2_S1024x227x227x3_3_01_n_n_01_3_113_wf

class Facts : Prop extends Facts₀ where

variable [Facts]
-- ==== Proof.Spec.lean ====
/-
  The image-crop gather that both programs compute, as one function of the argument arrays.

  For a box `n` the host arithmetic (shared by the two programs, an integer chain on `rects`) gives a source column
  `cols[n, xx]` for each destination column `xx` and a source row `rows[n, yy]` for each destination row `yy`, both in
  `[0, 1023]` after the final clamp. The result at `(n, c, xx, yy)` is the image at `(rows[n, yy], cols[n, xx], c)`.
  The words are read as naturals; `% 1024` only makes the function total (it is the identity on clamped words).
-/
import Idealize.ShloMosaic.PureOps.Ideal
import Idealize.ShloMosaic.Lib.ValueIdx

noncomputable section

namespace Cert.Warp

open Idealize.ShloMosaic Idealize.ShloMosaic.ValueIdx

abbrev SIm : Shape := ⟨3, ![1024, 1024, 3]⟩
abbrev SIdx : Shape := ⟨2, ![1024, 227]⟩
abbrev SOut : Shape := ⟨4, ![1024, 3, 227, 227]⟩

/-- Every word of an index table, read as a natural, is a position of an axis of extent 1024. -/
def InRange (v : IVec SIdx 32) : Prop := ∀ i : SIdx.Idx, (v i).toNat < 1024

/-- A word as a position of an axis of extent 1024. -/
def pos (w : BitVec 32) : Fin 1024 := ⟨w.toNat % 1024, Nat.mod_lt _ (by decide)⟩

theorem pos_val_of_lt {w : BitVec 32} (h : w.toNat < 1024) : (pos w).val = w.toNat := Nat.mod_eq_of_lt h

/-- Channel `c`'s row `h` as a lane of the kernel's image plane, `plane[w, c * 1024 + h] = im[h, w, c]`. -/
def lane (c : Fin 3) (h : Fin 1024) : Fin 3072 := ⟨c.val * 1024 + h.val, by have := c.isLt; have := h.isLt; omega⟩

theorem lane_val (c : Fin 3) (h : Fin 1024) : (lane c h).val = c.val * 1024 + h.val := rfl

/-- The crop: `out[n, c, xx, yy] = im[rows[n, yy], cols[n, xx], c]`. -/
def warp (im : FVec Ideal SIm .f32) (cols rows : IVec SIdx 32) : FVec Ideal SOut .f32 :=
  fun i => im (ix3 (pos (rows (ix2 (i 0) (i 3)))) (pos (cols (ix2 (i 0) (i 2)))) (i 1))

theorem warp_apply (im : FVec Ideal SIm .f32) (cols rows : IVec SIdx 32) (n : Fin 1024) (c : Fin 3) (xx yy : Fin 227) :
    warp im cols rows (ix4 n c xx yy) = im (ix3 (pos (rows (ix2 n yy))) (pos (cols (ix2 n xx))) c) := rfl

end Cert.Warp

end
-- ==== Proof.Chain.lean ====
/-
  The host arithmetic on `rects` that both programs run before they touch the image, named once.

  From a box's corner coordinate `a` and extent `b` (columns 0 and 2 of `rects` for the image's columns, 1 and 3 for
  its rows) the chain computes, for each destination position `d < 227`,
  `clamp (lo + (d * (hi - lo)) // 227) 0 1023` with `lo = max 0 (a - 16)`, `hi = min 1024 (a + b + 16)`,
  all in 32-bit words (`//` is jnp's floor division: a truncating quotient corrected by one where the signs differ and
  the remainder is not zero). Only two things about it are used later: both programs apply the same term, and the
  closing clamp puts every word in `[0, 1023]`.
  Also named here: the kernel's image planes — the image laid out as `plane[w, c * 1024 + h] = im[h, w, c]` and its
  three-term split `hi = plane`, `mid = plane - hi`, `lo = (plane - hi) - mid` (format changes are the identity on the
  extended reals, so `mid` and `lo` vanish wherever the image is finite).
-/
import proofs.«425383_j3822520893488_3_alg».proof.KernelIdeal
import proofs.«425383_j3822520893488_3_alg».proof.Proof.Spec

noncomputable section

namespace Cert.KernelIdeal.Host

open Idealize.ShloMosaic Cert.KernelIdeal Cert.KernelIdeal.Facts₀

variable {F : FTy → Type} [FloatOps F] [Facts]

/-- jnp's `x // 227` on a table of words. -/
def floorDiv227 (x : IVec S1024x227 32) : IVec S1024x227 32 :=
  let f0 : IVec S_ 32 := id (constantI S_ 32 227#32)
  let f1 : IVec S1024x227 32 := broadcastInDim S1024x227 ![] bcast_S_S1024x227 f0
  let f2 : IVec S1024x227 32 := Host.divsi x f1
  let f3 : IVec S1024x227 32 := signi x
  let f4 : IVec S_ 32 := signi f0
  let f5 : IVec S1024x227 32 := broadcastInDim S1024x227 ![] bcast_S_S1024x227 f4
  let f6 : IVec S1024x227 1 := cmpi .ne f3 f5
  let f7 : IVec S1024x227 32 := broadcastInDim S1024x227 ![] bcast_S_S1024x227 f0
  let f8 : IVec S1024x227 32 := Host.remsi x f7
  let f9 : IVec S1024x227 32 := broadcastInDim S1024x227 ![] bcast_S_S1024x227 (constantI S_ 32 0#32)
  let f10 : IVec S1024x227 1 := cmpi .ne f8 f9
  let f11 : IVec S1024x227 1 := andi f6 f10
  let f12 : IVec S1024x227 32 := broadcastInDim S1024x227 ![] bcast_S_S1024x227 (constantI S_ 32 1#32)
  let f13 : IVec S1024x227 32 := subi f2 f12
  select f11 f13 f2

/-- jnp's `clip x 0 1023` on a table of words. -/
def clip1023 (x : IVec S1024x227 32) : IVec S1024x227 32 :=
  let g1 : IVec S1024x227 32 := broadcastInDim S1024x227 ![] bcast_S_S1024x227 (id (constantI S_ 32 0#32))
  let g2 : IVec S1024x227 32 := maxsi g1 x
  let g4 : IVec S1024x227 32 := broadcastInDim S1024x227 ![] bcast_S_S1024x227 (id (constantI S_ 32 1023#32))
  minsi g4 g2

/-- The source positions before the clamp, from a corner coordinate `a` and an extent `b` per box. -/
def srcPos (a b : IVec S1024 32) : IVec S1024x227 32 :=
  let v9 : IVec S1024 32 := subi a (broadcastInDim S1024 ![] bcast_S_S1024 (constantI S_ 32 16#32))
  let lo : IVec S1024 32 := maxsi (broadcastInDim S1024 ![] bcast_S_S1024 (constantI S_ 32 0#32)) v9
  let v12 : IVec S1024 32 := addi a b
  let v14 : IVec S1024 32 := addi v12 (broadcastInDim S1024 ![] bcast_S_S1024 (constantI S_ 32 16#32))
  let hi : IVec S1024 32 := minsi (broadcastInDim S1024 ![] bcast_S_S1024 (constantI S_ 32 1024#32)) v14
  let d : IVec S227 32 := iotaInDim S227 32 0
  let lo1 : IVec S1024x1 32 := broadcastInDim S1024x1 ![0] bcast_S1024_S1024x1_0 lo
  let d1 : IVec S1x227 32 := broadcastInDim S1x227 ![1] bcast_S227_S1x227_1 d
  let ext : IVec S1024 32 := subi hi lo
  let ext1 : IVec S1024x1 32 := broadcastInDim S1024x1 ![0] bcast_S1024_S1024x1_0 ext
  let d2 : IVec S1024x227 32 := broadcastInDim S1024x227 ![0, 1] bcast_S1x227_S1024x227_0_1 d1
  let ext2 : IVec S1024x227 32 := broadcastInDim S1024x227 ![0, 1] bcast_S1024x1_S1024x227_0_1 ext1
  let prod : IVec S1024x227 32 := muli d2 ext2
  let q : IVec S1024x227 32 := floorDiv227 prod
  let lo2 : IVec S1024x227 32 := broadcastInDim S1024x227 ![0, 1] bcast_S1024x1_S1024x227_0_1 lo1
  addi lo2 q

/-- Column `k` of `rects`, as a vector over the boxes. -/
def rectCol0 (r : IVec S1024x4 32) : IVec S1024 32 := shapeCast S1024 (extractStridedSlice S1024x1 ![0, 0] r slices_S1024x4_S1024x1_0_0) shapeCasts_S1024x1_S1024
def rectCol1 (r : IVec S1024x4 32) : IVec S1024 32 := shapeCast S1024 (extractStridedSlice S1024x1 ![0, 1] r slices_S1024x4_S1024x1_0_1) shapeCasts_S1024x1_S1024
def rectCol2 (r : IVec S1024x4 32) : IVec S1024 32 := shapeCast S1024 (extractStridedSlice S1024x1 ![0, 2] r slices_S1024x4_S1024x1_0_2) shapeCasts_S1024x1_S1024
def rectCol3 (r : IVec S1024x4 32) : IVec S1024 32 := shapeCast S1024 (extractStridedSlice S1024x1 ![0, 3] r slices_S1024x4_S1024x1_0_3) shapeCasts_S1024x1_S1024

/-- The source column of every destination column of every box. -/
def colsOf (r : IVec S1024x4 32) : IVec S1024x227 32 := clip1023 (srcPos (rectCol0 r) (rectCol2 r))
/-- The source row of every destination row of every box. -/
def rowsOf (r : IVec S1024x4 32) : IVec S1024x227 32 := clip1023 (srcPos (rectCol1 r) (rectCol3 r))

/-- The image as the kernel lays it out: `plane[w, c * 1024 + h] = im[h, w, c]`. -/
def planeOf (im : FVec F S1024x1024x3 .f32) : FVec F S1024x3072 .f32 :=
  shapeCast S1024x3072 (transpose S1024x3x1024 [1, 2, 0] im transposes_S1024x1024x3_S1024x3x1024_1_2_0) shapeCasts_S1024x3x1024_S1024x3072

/-- The three planes the kernel stages: the leading term of the split and its two residues. -/
def planeHi (im : FVec F S1024x1024x3 .f32) : FVec F S1024x3072 .bf16 := truncf .bf16 (planeOf im) bitsLt_bf16_f32
def planeRes1 (im : FVec F S1024x1024x3 .f32) : FVec F S1024x3072 .f32 := subf (planeOf im) (extf .f32 (planeHi im) bitsLt_bf16_f32)
def planeMid (im : FVec F S1024x1024x3 .f32) : FVec F S1024x3072 .bf16 := truncf .bf16 (planeRes1 im) bitsLt_bf16_f32
def planeRes2 (im : FVec F S1024x1024x3 .f32) : FVec F S1024x3072 .f32 := subf (planeRes1 im) (extf .f32 (planeMid im) bitsLt_bf16_f32)
def planeLo (im : FVec F S1024x1024x3 .f32) : FVec F S1024x3072 .bf16 := truncf .bf16 (planeRes2 im) bitsLt_bf16_f32

end Cert.KernelIdeal.Host

end
-- ==== Proof.KernelArgs.lean ====
/-
  Core `c`'s two argument arrays as launched, named.
-/
import proofs.«425383_j3822520893488_3_alg».proof.KernelIdeal
import Idealize.ShloMosaic.PureOps.Ideal

noncomputable section

namespace Cert.KernelIdeal.Crop

open Cert.KernelIdeal Idealize.ShloMosaic Idealize.ShloMosaic.TcCoe Idealize.SL.Sem

variable (m : (ℓ : Loc nD τ sig) → Buf (Elt Ideal) ℓ)

/-- The image as launched on core `c`. -/
abbrev imOf (c : Dev nD) : FVec Ideal S1024x1024x3 .f32 := m ((c : Thread nD τ).loc main_arg0)
/-- The boxes as launched on core `c`. -/
abbrev rectsOf (c : Dev nD) : IVec S1024x4 32 := m ((c : Thread nD τ).loc main_arg1)

end Cert.KernelIdeal.Crop

end
-- ==== Proof.KernelHostCols.lean ====
/-
  What the kernel's region finds in one of the arrays its windows stage: the table of source columns, one row per box.
  The host operations before the region are a fold over the launch contents; read at this buffer the fold is the
  named term (the operations that write other buffers drop out, the callees' operations are read through their
  typed references).
-/
import proofs.«425383_j3822520893488_3_alg».proof.Proof.KIFrame
import proofs.«425383_j3822520893488_3_alg».proof.Proof.Chain
import proofs.«425383_j3822520893488_3_alg».proof.Proof.KernelArgs
import Idealize.ShloMosaic.Lib.StableHlo.Run

set_option maxRecDepth 16384

noncomputable section

namespace Cert.KernelIdeal.Crop

open Cert.KernelIdeal Cert.KernelIdeal.Gen Cert.KernelIdeal.GenP
open Cert.KernelIdeal.Host
open Idealize.ShloMosaic Idealize.ShloMosaic.TcCoe Idealize.SL.Sem

variable (m : (ℓ : Loc nD τ sig) → Buf (Elt Ideal) ℓ)

set_option maxHeartbeats 4000000 in
/-- The first window's array: the table of source columns with a unit middle axis. -/
theorem V_cols (c : Dev nD) : (V m c main_v49 : IVec S1024x1x227 32)
    = shapeCast S1024x1x227 (colsOf (rectsOf m c)) Facts₀.shapeCasts_S1024x227_S1024x1x227 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.ofBuf, StableHlo.TRef.toBuf, cast_eq]
  unfold colsOf clip1023 srcPos floorDiv227 rectCol0 rectCol2
  rfl

end Cert.KernelIdeal.Crop

end
-- ==== Proof.KernelHostRows.lean ====
/-
  What the kernel's region finds in one of the arrays its windows stage: the table of source rows, one row per box.
  The host operations before the region are a fold over the launch contents; read at this buffer the fold is the
  named term (the operations that write other buffers drop out, the callees' operations are read through their
  typed references).
-/
import proofs.«425383_j3822520893488_3_alg».proof.Proof.KIFrame
import proofs.«425383_j3822520893488_3_alg».proof.Proof.Chain
import proofs.«425383_j3822520893488_3_alg».proof.Proof.KernelArgs
import Idealize.ShloMosaic.Lib.StableHlo.Run

set_option maxRecDepth 16384

noncomputable section

namespace Cert.KernelIdeal.Crop

open Cert.KernelIdeal Cert.KernelIdeal.Gen Cert.KernelIdeal.GenP
open Cert.KernelIdeal.Host
open Idealize.ShloMosaic Idealize.ShloMosaic.TcCoe Idealize.SL.Sem

variable (m : (ℓ : Loc nD τ sig) → Buf (Elt Ideal) ℓ)

set_option maxHeartbeats 4000000 in
/-- The second window's array: the table of source rows with a unit middle axis. -/
theorem V_rows (c : Dev nD) : (V m c main_v50 : IVec S1024x1x227 32)
    = shapeCast S1024x1x227 (rowsOf (rectsOf m c)) Facts₀.shapeCasts_S1024x227_S1024x1x227 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.ofBuf, StableHlo.TRef.toBuf, cast_eq]
  unfold rowsOf clip1023 srcPos floorDiv227 rectCol1 rectCol3
  rfl

end Cert.KernelIdeal.Crop

end
-- ==== Proof.KernelHostHi.lean ====
/-
  What the kernel's region finds in one of the arrays its windows stage: the leading plane of the image's split.
  The host operations before the region are a fold over the launch contents; read at this buffer the fold is the
  named term (the operations that write other buffers drop out, the callees' operations are read through their
  typed references).
-/
import proofs.«425383_j3822520893488_3_alg».proof.Proof.KIFrame
import proofs.«425383_j3822520893488_3_alg».proof.Proof.Chain
import proofs.«425383_j3822520893488_3_alg».proof.Proof.KernelArgs
import Idealize.ShloMosaic.Lib.StableHlo.Run

set_option maxRecDepth 16384

noncomputable section

namespace Cert.KernelIdeal.Crop

open Cert.KernelIdeal Cert.KernelIdeal.Gen Cert.KernelIdeal.GenP
open Cert.KernelIdeal.Host
open Idealize.ShloMosaic Idealize.ShloMosaic.TcCoe Idealize.SL.Sem

variable (m : (ℓ : Loc nD τ sig) → Buf (Elt Ideal) ℓ)

set_option maxHeartbeats 4000000 in
/-- The third window's array: the leading plane. -/
theorem V_hi (c : Dev nD) : (V m c main_v53 : FVec Ideal S1024x3072 .bf16) = planeHi (imOf m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  unfold planeHi planeOf
  rfl

end Cert.KernelIdeal.Crop

end
-- ==== Proof.KernelHostMid.lean ====
/-
  What the kernel's region finds in one of the arrays its windows stage: the first residue plane of the image's split.
  The host operations before the region are a fold over the launch contents; read at this buffer the fold is the
  named term (the operations that write other buffers drop out, the callees' operations are read through their
  typed references).
-/
import proofs.«425383_j3822520893488_3_alg».proof.Proof.KIFrame
import proofs.«425383_j3822520893488_3_alg».proof.Proof.Chain
import proofs.«425383_j3822520893488_3_alg».proof.Proof.KernelArgs
import Idealize.ShloMosaic.Lib.StableHlo.Run

set_option maxRecDepth 16384

noncomputable section

namespace Cert.KernelIdeal.Crop

open Cert.KernelIdeal Cert.KernelIdeal.Gen Cert.KernelIdeal.GenP
open Cert.KernelIdeal.Host
open Idealize.ShloMosaic Idealize.ShloMosaic.TcCoe Idealize.SL.Sem

variable (m : (ℓ : Loc nD τ sig) → Buf (Elt Ideal) ℓ)

set_option maxHeartbeats 4000000 in
/-- The fourth window's array: the first residue plane. -/
theorem V_mid (c : Dev nD) : (V m c main_v56 : FVec Ideal S1024x3072 .bf16) = planeMid (imOf m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  unfold planeMid planeRes1 planeHi planeOf
  rfl

end Cert.KernelIdeal.Crop

end
-- ==== Proof.KernelHostLo.lean ====
/-
  What the kernel's region finds in one of the arrays its windows stage: the second residue plane of the image's split.
  The host operations before the region are a fold over the launch contents; read at this buffer the fold is the
  named term (the operations that write other buffers drop out, the callees' operations are read through their
  typed references).
-/
import proofs.«425383_j3822520893488_3_alg».proof.Proof.KIFrame
import proofs.«425383_j3822520893488_3_alg».proof.Proof.Chain
import proofs.«425383_j3822520893488_3_alg».proof.Proof.KernelArgs
import Idealize.ShloMosaic.Lib.StableHlo.Run

set_option maxRecDepth 16384

noncomputable section

namespace Cert.KernelIdeal.Crop

open Cert.KernelIdeal Cert.KernelIdeal.Gen Cert.KernelIdeal.GenP
open Cert.KernelIdeal.Host
open Idealize.ShloMosaic Idealize.ShloMosaic.TcCoe Idealize.SL.Sem

variable (m : (ℓ : Loc nD τ sig) → Buf (Elt Ideal) ℓ)

set_option maxHeartbeats 4000000 in
/-- The fifth window's array: the second residue plane. -/
theorem V_lo (c : Dev nD) : (V m c main_v59 : FVec Ideal S1024x3072 .bf16) = planeLo (imOf m c) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  unfold planeLo planeRes2 planeMid planeRes1 planeHi planeOf
  rfl

end Cert.KernelIdeal.Crop

end
-- ==== Proof.ChainFacts.lean ====
/-
  Two facts about the shared host arithmetic, and the kernel's image planes read at an index.

  (1) jnp's `clip x 0 1023` leaves a word that, read as a natural, is below 1024, whatever the word `x` was: the inner
  signed maximum with 0 is not negative, the outer signed minimum with 1023 is at most 1023.
  (2) The kernel's plane is the image transposed to (W, C, H) and flattened over (C, H):
  `plane[w, c * 1024 + h] = im[h, w, c]`. On the extended reals a change of float format is the identity, so the
  split's leading plane IS the plane, and its residues `v - v`, `(v - v) - (v - v)` are 0 wherever `v` is a real number.
-/
import proofs.«425383_j3822520893488_3_alg».proof.Proof.Chain
import proofs.«425383_j3822520893488_3_alg».proof.Proof.Gen.KernelIdeal
import Idealize.ShloMosaic.Lib.Pipeline.Value
import Idealize.ShloMosaic.Lib.ValueLayout
import Idealize.ShloMosaic.Lib.StableHlo.Predicate

noncomputable section

namespace Cert.KernelIdeal.Host

open Idealize.ShloMosaic Idealize.ShloMosaic.ValueIdx Cert.KernelIdeal Cert.KernelIdeal.Facts₀ Cert.Warp

/-- A word that is not negative and at most 1023 as a signed integer is below 1024 as a natural. -/
theorem toNat_lt_of_toInt (v : BitVec 32) (h0 : 0 ≤ v.toInt) (h1 : v.toInt ≤ 1023) : v.toNat < 1024 := by
  have hv := v.isLt
  have := BitVec.toInt_eq_toNat_cond v
  split at this <;> omega

/-- The clamp's result is a position of an axis of extent 1024, whatever word goes in. -/
theorem clip_word_lt (w : BitVec 32) : (IntOp.minsi 1023#32 (IntOp.maxsi 0#32 w)).toNat < 1024 := by
  have h0 : (0#32 : BitVec 32).toInt = 0 := by decide
  have h1 : (1023#32 : BitVec 32).toInt = 1023 := by decide
  apply toNat_lt_of_toInt
  · unfold IntOp.minsi IntOp.maxsi
    simp only [BitVec.slt, decide_eq_true_eq]
    split_ifs <;> omega
  · unfold IntOp.minsi IntOp.maxsi
    simp only [BitVec.slt, decide_eq_true_eq]
    split_ifs <;> omega

theorem clip1023_inRange (x : IVec S1024x227 32) : InRange (clip1023 x) := by
  intro i
  exact clip_word_lt (x i)

theorem colsOf_inRange (r : IVec S1024x4 32) : InRange (colsOf r) := clip1023_inRange _
theorem rowsOf_inRange (r : IVec S1024x4 32) : InRange (rowsOf r) := clip1023_inRange _

/-- The plane at column `w`, lane `c * 1024 + h`, is the image at row `h`, column `w`, channel `c`. -/
theorem planeOf_apply (im : FVec Ideal S1024x1024x3 .f32) (w : Fin 1024) (c : Fin 3) (h : Fin 1024) :
    planeOf (F := Ideal) im (ix2 w (lane c h)) = im (ix3 h w c) := by
  unfold planeOf
  rw [shapeCast_apply _ _ (ix2 w (lane c h)) (ix3 w c h) (by
    rw [Shape.rowMajor_val_three, Shape.rowMajor_val_two]
    show (w.val * 3 + c.val) * 1024 + h.val = w.val * 3072 + (c.val * 1024 + h.val)
    omega)]
  exact transpose_apply _ _ _ _ (ix3 h w c) (fun b => by
    match b with
    | ⟨0, _⟩ => rfl
    | ⟨1, _⟩ => rfl
    | ⟨2, _⟩ => rfl)

/-- The leading plane of the split is the plane. -/
theorem planeHi_apply (im : FVec Ideal S1024x1024x3 .f32) (i : S1024x3072.Idx) : planeHi (F := Ideal) im i = planeOf im i := rfl

/-- Every entry of the plane is an entry of the image. -/
theorem planeOf_real (im : FVec Ideal S1024x1024x3 .f32) (hfin : ∀ j, ∃ v : ℝ, im j = (v : EReal)) (i : S1024x3072.Idx) :
    ∃ v : ℝ, planeOf (F := Ideal) im i = (v : EReal) := by
  obtain ⟨w, l, rfl⟩ : ∃ (w : Fin 1024) (l : Fin 3072), i = ix2 w l := ⟨i 0, i 1, eq_ix2 i⟩
  have hl := l.isLt
  have e : l = lane ⟨l.val / 1024, by omega⟩ ⟨l.val % 1024, Nat.mod_lt _ (by decide)⟩ :=
    Fin.ext (by show l.val = l.val / 1024 * 1024 + l.val % 1024; omega)
  rw [e, planeOf_apply]
  exact hfin _

/-- The first residue vanishes on a finite image. -/
theorem planeMid_apply (im : FVec Ideal S1024x1024x3 .f32) (hfin : ∀ j, ∃ v : ℝ, im j = (v : EReal)) (i : S1024x3072.Idx) :
    planeMid (F := Ideal) im i = 0 := by
  obtain ⟨v, hv⟩ := planeOf_real im hfin i
  show planeOf im i - planeOf im i = 0
  rw [hv, ← EReal.coe_sub, sub_self, EReal.coe_zero]

/-- The second residue vanishes on a finite image. -/
theorem planeLo_apply (im : FVec Ideal S1024x1024x3 .f32) (hfin : ∀ j, ∃ v : ℝ, im j = (v : EReal)) (i : S1024x3072.Idx) :
    planeLo (F := Ideal) im i = 0 := by
  have h1 : planeRes1 (F := Ideal) im i = 0 := planeMid_apply im hfin i
  show planeRes1 im i - planeRes1 im i = 0
  rw [h1, sub_zero]

end Cert.KernelIdeal.Host

end
-- ==== Proof.KernelPayload.lean ====
/-
  The kernel body's three stored values, read at an index.

  For one box the body builds two 0/1 selectors from the box's index rows — `csel[xx, w] = 1` iff `w = cols[xx]`,
  `rselT[h, yy] = 1` iff `h = rows[yy]` —, contracts the column selector with the image plane (three products, one per
  term of the split, summed), cuts the result into the three channels' 1024 lanes, splits each again into three terms
  and contracts them with the row selector. On the extended reals a selector row has one 1 and 1023 zeros, so a product
  with it picks one entry; the split's second and third terms are `v - v` and `(v - v) - (v - v)`, zero at every finite
  `v`. Hence, with a finite first plane `P` and zero second and third planes, channel `c`'s stored value at `(xx, yy)` is
  `P[cols[xx], c * 1024 + rows[yy]]`.
-/
import proofs.«425383_j3822520893488_3_alg».proof.Proof.Gen.KernelIdeal.Skeleton
import proofs.«425383_j3822520893488_3_alg».proof.Proof.Spec
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.Warp

/-- What every channel's stored value is, given the box's index rows and the first plane. -/
def picked (v0 v2 : Vec Ideal S1x1x227 .i32) (P : FVec Ideal S1024x3072 .bf16) (c : Fin 3) (xx yy : Fin 227) : EReal :=
  P (ix2 (pos (v0 (ix3 0 0 xx))) (lane c (pos (v2 (ix3 0 0 yy)))))

/-! ## Words and bits -/

/-- A position of an axis of extent 1024, as a word, is a given in-range word exactly when it is that word's number. -/
theorem ofNat_eq_iff (w : Fin 1024) (b : BitVec 32) (hb : b.toNat < 1024) :
    BitVec.ofNat 32 w.val = b ↔ w = pos b := by
  constructor
  · intro h
    apply Fin.ext
    rw [pos_val_of_lt hb, ← h, BitVec.toNat_ofNat]
    have := w.isLt
    omega
  · intro h
    apply BitVec.eq_of_toNat_eq
    rw [BitVec.toNat_ofNat, h, pos_val_of_lt hb]
    omega

/-- An equality bit, widened to a word and converted, is one where the words agree and zero elsewhere. -/
theorem bit_val (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have : IntOp.cmpi .eq a a = 1#1 := by
      show BitVec.ofBool (a == a) = 1#1
      rw [beq_self_eq_true]; rfl
    rw [this]
    simp
  · rw [if_neg h]
    have : IntOp.cmpi .eq a b = 0#1 := by
      show BitVec.ofBool (a == b) = 0#1
      rw [beq_eq_false_iff_ne.mpr h]; rfl
    rw [this]
    simp

/-! ## The two selectors -/

/-- The column selector's entry: one where the box's source column for destination column `xx` is `w`. -/
theorem csel_apply (v0 : Vec Ideal S1x1x227 .i32) (h1 : S1x1x227.ShapeCasts S227) (h2 : S227.ShapeCasts S227x1)
    (h3 : S227x1.Broadcasts S227x1024) (hi : S227x1024.Iotas .tc 32 [1]) (h4 : 1 < 32) (h5 : FTy.bits .bf16 < FTy.bits .f32)
    (xx : Fin 227) (w : Fin 1024) :
    (truncf (F := Ideal) .bf16 (sitofp .f32 (extui 32 (cmpi .eq (broadcastTo S227x1024 (shapeCast S227x1 (shapeCast S227 v0 h1) h2) h3)
        (iota .tc S227x1024 32 [1] hi)) h4)) h5 : FVec Ideal S227x1024 .bf16) (ix2 xx w)
      = if v0 (ix3 0 0 xx) = BitVec.ofNat 32 w.val then 1 else 0 := by
  have e1 : broadcastTo S227x1024 (shapeCast S227x1 (shapeCast S227 v0 h1) h2) h3 (ix2 xx w) = v0 (ix3 0 0 xx) := by
    refine (broadcastTo_apply _ h3 (ix2 xx w) (ix2 xx (0 : Fin 1)) ?_).trans ?_
    · intro a
      match a with
      | ⟨0, _⟩ => rfl
      | ⟨1, _⟩ => rfl
    refine (shapeCast_apply _ h2 (ix2 xx (0 : Fin 1)) (ix1 xx) ?_).trans ?_
    · rw [Shape.rowMajor_val_one, Shape.rowMajor_val_two]
      show xx.val = xx.val * 1 + 0
      omega
    refine shapeCast_apply _ h1 (ix1 xx) (ix3 (0 : Fin 1) (0 : Fin 1) xx) ?_
    rw [Shape.rowMajor_val_three, Shape.rowMajor_val_one]
    show (0 * 1 + 0) * 227 + xx.val = xx.val
    omega
  have e2 : iota .tc S227x1024 32 [1] hi (ix2 xx w) = BitVec.ofNat 32 w.val := iota_single_apply _ _ _ _ hi _
  show FloatOps.sitofp (F := Ideal) .f32 ((IntOp.cmpi .eq (broadcastTo S227x1024 (shapeCast S227x1 (shapeCast S227 v0 h1) h2) h3 (ix2 xx w))
      (iota .tc S227x1024 32 [1] hi (ix2 xx w))).setWidth 32) = _
  rw [e1, e2, bit_val]

/-- The row selector's entry: one where the box's source row for destination row `yy` is `h`. -/
theorem rsel_apply (v2 : Vec Ideal S1x1x227 .i32) (h : Fin 1024) (yy : Fin 227) :
    k0_pay4 (F := Ideal) v2 (ix2 h yy) = if BitVec.ofNat 32 h.val = v2 (ix3 0 0 yy) then 1 else 0 := by
  have e1 : broadcastTo S1024x227 (shapeCast S1x227 (shapeCast S227 v2 shapeCasts_S1x1x227_S227) shapeCasts_S227_S1x227)
      broadcasts_S1x227_S1024x227 (ix2 h yy) = v2 (ix3 0 0 yy) := by
    refine (broadcastTo_1b_ab_apply _ _ h yy).trans ?_
    refine (shapeCast_a_1a_apply _ _ (0 : Fin 1) yy).trans ?_
    refine shapeCast_apply _ _ (ix1 yy) (ix3 (0 : Fin 1) (0 : Fin 1) yy) ?_
    rw [Shape.rowMajor_val_three, Shape.rowMajor_val_one]
    show (0 * 1 + 0) * 227 + yy.val = yy.val
    omega
  have e2 : iota .tc S1024x227 32 [0] iota_S1024x227_d0_w32 (ix2 h yy) = BitVec.ofNat 32 h.val := iota_single_apply _ _ _ _ _ _
  show FloatOps.sitofp (F := Ideal) .f32 ((IntOp.cmpi .eq (iota .tc S1024x227 32 [0] iota_S1024x227_d0_w32 (ix2 h yy))
      (broadcastTo S1024x227 (shapeCast S1x227 (shapeCast S227 v2 shapeCasts_S1x1x227_S227) shapeCasts_S227_S1x227)
        broadcasts_S1x227_S1024x227 (ix2 h yy))).setWidth 32) = _
  rw [e1, e2, bit_val]

/-! ## The two products as sums over the contracted axis -/

theorem d1_lhs_0 (j : S227x3072.Idx) (k : dot_S227x1024_S1024x3072_S227x3072_1_0_0_1_n_n.contr.Idx) :
    (dot_S227x1024_S1024x3072_S227x3072_1_0_0_1_n_n.lhsIdx j k 0 : ℕ) = j 0 := by
  simp [DotDims.lhsIdx, dot_S227x1024_S1024x3072_S227x3072_1_0_0_1_n_n]; rfl
theorem d1_lhs_1 (j : S227x3072.Idx) (k : dot_S227x1024_S1024x3072_S227x3072_1_0_0_1_n_n.contr.Idx) :
    (dot_S227x1024_S1024x3072_S227x3072_1_0_0_1_n_n.lhsIdx j k 1 : ℕ) = k ⟨0, by decide⟩ :=
  dot_S227x1024_S1024x3072_S227x3072_1_0_0_1_n_n.lhsIdx_val_of_single (cl := 1) rfl j k
theorem d1_rhs_0 (j : S227x3072.Idx) (k : dot_S227x1024_S1024x3072_S227x3072_1_0_0_1_n_n.contr.Idx) :
    (dot_S227x1024_S1024x3072_S227x3072_1_0_0_1_n_n.rhsIdx j k 0 : ℕ) = k ⟨0, by decide⟩ :=
  dot_S227x1024_S1024x3072_S227x3072_1_0_0_1_n_n.rhsIdx_val_of_single (cr := 0) rfl j k
theorem d1_rhs_1 (j : S227x3072.Idx) (k : dot_S227x1024_S1024x3072_S227x3072_1_0_0_1_n_n.contr.Idx) :
    (dot_S227x1024_S1024x3072_S227x3072_1_0_0_1_n_n.rhsIdx j k 1 : ℕ) = j 1 := by
  simp [DotDims.rhsIdx, dot_S227x1024_S1024x3072_S227x3072_1_0_0_1_n_n]; rfl

theorem d2_lhs_0 (j : S227x227.Idx) (k : dot_S227x1024_S1024x227_S227x227_1_0_0_1_n_n.contr.Idx) :
    (dot_S227x1024_S1024x227_S227x227_1_0_0_1_n_n.lhsIdx j k 0 : ℕ) = j 0 := by
  simp [DotDims.lhsIdx, dot_S227x1024_S1024x227_S227x227_1_0_0_1_n_n]; rfl
theorem d2_lhs_1 (j : S227x227.Idx) (k : dot_S227x1024_S1024x227_S227x227_1_0_0_1_n_n.contr.Idx) :
    (dot_S227x1024_S1024x227_S227x227_1_0_0_1_n_n.lhsIdx j k 1 : ℕ) = k ⟨0, by decide⟩ :=
  dot_S227x1024_S1024x227_S227x227_1_0_0_1_n_n.lhsIdx_val_of_single (cl := 1) rfl j k
theorem d2_rhs_0 (j : S227x227.Idx) (k : dot_S227x1024_S1024x227_S227x227_1_0_0_1_n_n.contr.Idx) :
    (dot_S227x1024_S1024x227_S227x227_1_0_0_1_n_n.rhsIdx j k 0 : ℕ) = k ⟨0, by decide⟩ :=
  dot_S227x1024_S1024x227_S227x227_1_0_0_1_n_n.rhsIdx_val_of_single (cr := 0) rfl j k
theorem d2_rhs_1 (j : S227x227.Idx) (k : dot_S227x1024_S1024x227_S227x227_1_0_0_1_n_n.contr.Idx) :
    (dot_S227x1024_S1024x227_S227x227_1_0_0_1_n_n.rhsIdx j k 1 : ℕ) = j 1 := by
  simp [DotDims.rhsIdx, dot_S227x1024_S1024x227_S227x227_1_0_0_1_n_n]; rfl

/-- The first product into the zero accumulator, at `(xx, j)`: the sum over the 1024 source columns. -/
theorem mm1_apply (A : FVec Ideal S227x1024 .bf16) (B : FVec Ideal S1024x3072 .bf16) (xx : Fin 227) (j : Fin 3072) :
    matmul (F := Ideal) dot_S227x1024_S1024x3072_S227x3072_1_0_0_1_n_n none A B (constant S227x3072 .f32 0x00000000#32) (ix2 xx j)
      = ∑ w : Fin 1024, A (ix2 xx w) * B (ix2 w j) := by
  refine (Ideal.matmul_constant_zero_apply _ none A B (ix2 xx j)).trans ?_
  rw [← Equiv.sum_comp (contrEquiv1 dot_S227x1024_S1024x3072_S227x3072_1_0_0_1_n_n 1024 rfl rfl).symm]
  refine Finset.sum_congr rfl fun w _ => ?_
  congr 2
  · apply Shape.idx_ext₂
    · rw [d1_lhs_0]
    · exact (d1_lhs_1 _ _).trans (contrEquiv1_symm_val _ _ _ _ w)
  · apply Shape.idx_ext₂
    · exact (d1_rhs_0 _ _).trans (contrEquiv1_symm_val _ _ _ _ w)
    · rw [d1_rhs_1]

/-- The second product into the zero accumulator, at `(xx, yy)`: the sum over the 1024 source rows. -/
theorem mm2_apply (A : FVec Ideal S227x1024 .bf16) (B : FVec Ideal S1024x227 .bf16) (xx yy : Fin 227) :
    matmul (F := Ideal) dot_S227x1024_S1024x227_S227x227_1_0_0_1_n_n none A B (constant S227x227 .f32 0x00000000#32) (ix2 xx yy)
      = ∑ h : Fin 1024, A (ix2 xx h) * B (ix2 h yy) := by
  refine (Ideal.matmul_constant_zero_apply _ none A B (ix2 xx yy)).trans ?_
  rw [← Equiv.sum_comp (contrEquiv1 dot_S227x1024_S1024x227_S227x227_1_0_0_1_n_n 1024 rfl rfl).symm]
  refine Finset.sum_congr rfl fun h _ => ?_
  congr 2
  · apply Shape.idx_ext₂
    · rw [d2_lhs_0]
    · exact (d2_lhs_1 _ _).trans (contrEquiv1_symm_val _ _ _ _ h)
  · apply Shape.idx_ext₂
    · exact (d2_rhs_0 _ _).trans (contrEquiv1_symm_val _ _ _ _ h)
    · rw [d2_rhs_1]

/-! ## Sums against a 0/1 row or column, and finite differences -/

/-- A sum against a 0/1 row whose one is at `k` picks the other factor's entry at `k`. -/
theorem sum_sel_mul (k : Fin 1024) (c g : Fin 1024 → EReal) (hc : ∀ w, c w = if w = k then 1 else 0) :
    ∑ w, c w * g w = g k := by
  rw [Finset.sum_eq_single k]
  · rw [hc, if_pos rfl, one_mul]
  · intro w _ hw
    rw [hc, if_neg hw, zero_mul]
  · intro h
    exact absurd (Finset.mem_univ k) h

/-- The same with the 0/1 factor on the right. -/
theorem sum_mul_sel (k : Fin 1024) (g c : Fin 1024 → EReal) (hc : ∀ w, c w = if w = k then 1 else 0) :
    ∑ w, g w * c w = g k := by
  rw [Finset.sum_eq_single k]
  · rw [hc, if_pos rfl, mul_one]
  · intro w _ hw
    rw [hc, if_neg hw, mul_zero]
  · intro h
    exact absurd (Finset.mem_univ k) h

/-- A finite extended real minus itself is zero (an infinite one is not). -/
theorem fin_sub_self (x : EReal) (hx : ∃ r : ℝ, x = (r : EReal)) : x - x = 0 := by
  obtain ⟨r, rfl⟩ := hx
  rw [← EReal.coe_sub, sub_self, EReal.coe_zero]

/-! ## The two stages -/

/-- Stage one at `(xx, j)`: with a column selector row whose one is at `k`, a first plane and two zero planes, the
    three products' sum is the first plane's entry `(k, j)`. -/
theorem stage1_apply (C : FVec Ideal S227x1024 .bf16) (P Z3 Z4 : FVec Ideal S1024x3072 .bf16)
    (hs : S1024x3072.ShapeCasts S1024x3072) (hZ3 : ∀ i, Z3 i = 0) (hZ4 : ∀ i, Z4 i = 0) (xx : Fin 227) (k : Fin 1024)
    (hC : ∀ w : Fin 1024, C (ix2 xx w) = if w = k then 1 else 0) (j : Fin 3072) :
    addf (F := Ideal)
      (addf (matmul dot_S227x1024_S1024x3072_S227x3072_1_0_0_1_n_n none C (shapeCast S1024x3072 P hs) (constant S227x3072 .f32 0x00000000#32))
        (matmul dot_S227x1024_S1024x3072_S227x3072_1_0_0_1_n_n none C (shapeCast S1024x3072 Z3 hs) (constant S227x3072 .f32 0x00000000#32)))
      (matmul dot_S227x1024_S1024x3072_S227x3072_1_0_0_1_n_n none C (shapeCast S1024x3072 Z4 hs) (constant S227x3072 .f32 0x00000000#32))
      (ix2 xx j) = P (ix2 k j) := by
  rw [shapeCast_self, shapeCast_self, shapeCast_self]
  show (matmul dot_S227x1024_S1024x3072_S227x3072_1_0_0_1_n_n none C P (constant S227x3072 .f32 0x00000000#32) (ix2 xx j)
      + matmul dot_S227x1024_S1024x3072_S227x3072_1_0_0_1_n_n none C Z3 (constant S227x3072 .f32 0x00000000#32) (ix2 xx j))
      + matmul dot_S227x1024_S1024x3072_S227x3072_1_0_0_1_n_n none C Z4 (constant S227x3072 .f32 0x00000000#32) (ix2 xx j) = _
  rw [mm1_apply, mm1_apply, mm1_apply]
  have e3 : ∑ w : Fin 1024, C (ix2 xx w) * Z3 (ix2 w j) = 0 :=
    Finset.sum_eq_zero fun w _ => by rw [hZ3, mul_zero]
  have e4 : ∑ w : Fin 1024, C (ix2 xx w) * Z4 (ix2 w j) = 0 :=
    Finset.sum_eq_zero fun w _ => by rw [hZ4, mul_zero]
  rw [e3, e4, add_zero, add_zero]
  exact sum_sel_mul k (fun w => C (ix2 xx w)) (fun w => P (ix2 w j)) hC

/-- Stage two at `(xx, yy)`: with a row selector column whose one is at `k` and a finite row `d[xx, ·]`, the three
    products of the split's terms sum to `d[xx, k]`. -/
theorem stage2_apply (R : FVec Ideal S1024x227 .bf16) (d : FVec Ideal S227x1024 .f32) (hb : FTy.bits .bf16 < FTy.bits .f32)
    (xx yy : Fin 227) (k : Fin 1024) (hR : ∀ h : Fin 1024, R (ix2 h yy) = if h = k then 1 else 0)
    (hd : ∀ h : Fin 1024, ∃ r : ℝ, d (ix2 xx h) = (r : EReal)) :
    addf (F := Ideal)
      (addf (matmul dot_S227x1024_S1024x227_S227x227_1_0_0_1_n_n none (truncf .bf16 d hb) R (constant S227x227 .f32 0x00000000#32))
        (matmul dot_S227x1024_S1024x227_S227x227_1_0_0_1_n_n none (truncf .bf16 (subf d d) hb) R (constant S227x227 .f32 0x00000000#32)))
      (matmul dot_S227x1024_S1024x227_S227x227_1_0_0_1_n_n none (truncf .bf16 (subf (subf d d) (subf d d)) hb) R
        (constant S227x227 .f32 0x00000000#32))
      (ix2 xx yy) = d (ix2 xx k) := by
  show (matmul dot_S227x1024_S1024x227_S227x227_1_0_0_1_n_n none (truncf .bf16 d hb) R (constant S227x227 .f32 0x00000000#32) (ix2 xx yy)
      + matmul dot_S227x1024_S1024x227_S227x227_1_0_0_1_n_n none (truncf .bf16 (subf d d) hb) R (constant S227x227 .f32 0x00000000#32) (ix2 xx yy))
      + matmul dot_S227x1024_S1024x227_S227x227_1_0_0_1_n_n none (truncf .bf16 (subf (subf d d) (subf d d)) hb) R
          (constant S227x227 .f32 0x00000000#32) (ix2 xx yy) = _
  rw [mm2_apply, mm2_apply, mm2_apply]
  have z1 : ∀ h : Fin 1024, d (ix2 xx h) - d (ix2 xx h) = 0 := fun h => fin_sub_self _ (hd h)
  have e2 : ∑ h : Fin 1024, (truncf (F := Ideal) .bf16 (subf d d) hb) (ix2 xx h) * R (ix2 h yy) = 0 :=
    Finset.sum_eq_zero fun h _ => by
      show (d (ix2 xx h) - d (ix2 xx h)) * R (ix2 h yy) = 0
      rw [z1, zero_mul]
  have e3 : ∑ h : Fin 1024, (truncf (F := Ideal) .bf16 (subf (subf d d) (subf d d)) hb) (ix2 xx h) * R (ix2 h yy) = 0 :=
    Finset.sum_eq_zero fun h _ => by
      show ((d (ix2 xx h) - d (ix2 xx h)) - (d (ix2 xx h) - d (ix2 xx h))) * R (ix2 h yy) = 0
      rw [z1, fin_sub_self 0 ⟨0, rfl⟩, zero_mul]
  rw [e2, e3, add_zero, add_zero]
  exact sum_mul_sel k (fun h => d (ix2 xx h)) (fun h => R (ix2 h yy)) hR

/-! ## The stored values -/

/-- Stage one's result for one box: row `xx` is the first plane's row at the box's source column for `xx`. -/
theorem pay5_apply (v0 : Vec Ideal S1x1x227 .i32) (P Z3 Z4 : FVec Ideal S1024x3072 .bf16)
    (hZ3 : ∀ i, Z3 i = 0) (hZ4 : ∀ i, Z4 i = 0) (hv0 : ∀ i, (v0 i).toNat < 1024) (xx : Fin 227) (j : Fin 3072) :
    k0_pay5 (F := Ideal) v0 P Z3 Z4 (ix2 xx j) = P (ix2 (pos (v0 (ix3 0 0 xx))) j) :=
  stage1_apply
    (truncf .bf16 (sitofp .f32 (extui 32 (cmpi .eq
      (broadcastTo S227x1024 (shapeCast S227x1 (shapeCast S227 v0 shapeCasts_S1x1x227_S227) shapeCasts_S227_S227x1)
        broadcasts_S227x1_S227x1024)
      (iota .tc S227x1024 32 [1] iota_S227x1024_d1_w32)) natLt_1_32)) bitsLt_bf16_f32)
    P Z3 Z4 shapeCasts_S1024x3072_S1024x3072 hZ3 hZ4 xx (pos (v0 (ix3 0 0 xx)))
    (fun w => by
      rw [csel_apply]
      exact if_congr (eq_comm.trans (ofNat_eq_iff w _ (hv0 _))) rfl rfl) j

/-- A `[227, 227]` array cast to `[1, 1, 227, 227]` reads, at `(0, 0, xx, yy)`, the operand at `(xx, yy)`. -/
theorem shapeCast_ab_11ab_apply {α : Type} (x : S227x227.Idx → α) (h : S227x227.ShapeCasts S1x1x227x227) (xx yy : Fin 227) :
    shapeCast S1x1x227x227 x h (ix4 0 0 xx yy) = x (ix2 xx yy) :=
  shapeCast_apply x h _ _ (by
    rw [Shape.rowMajor_val_two, Shape.rowMajor_val_four]
    show xx.val * 227 + yy.val = ((0 * 1 + 0) * 227 + xx.val) * 227 + yy.val
    omega)

/-- One channel: the 1024 lanes of stage one's result from lane `o = c * 1024` on, split and contracted with the row
    selector, give at `(xx, yy)` the first plane's entry at the box's source column for `xx` and, in channel `c`, its
    source row for `yy`. -/
theorem chan_apply (v0 v2 : Vec Ideal S1x1x227 .i32) (P Z3 Z4 : FVec Ideal S1024x3072 .bf16)
    (hP : ∀ i, ∃ r : ℝ, P i = (r : EReal)) (hZ3 : ∀ i, Z3 i = 0) (hZ4 : ∀ i, Z4 i = 0)
    (hv0 : ∀ i, (v0 i).toNat < 1024) (hv2 : ∀ i, (v2 i).toNat < 1024)
    (c : Fin 3) (o : Nat) (ho : o = c.val * 1024) (hsl : S227x3072.Slices ![0, o] S227x1024)
    (d : FVec Ideal S227x1024 .f32) (hdef : d = extractStridedSlice S227x1024 ![0, o] (k0_pay5 (F := Ideal) v0 P Z3 Z4) hsl)
    (hb : FTy.bits .bf16 < FTy.bits .f32) (xx yy : Fin 227) :
    addf (F := Ideal)
      (addf (matmul dot_S227x1024_S1024x227_S227x227_1_0_0_1_n_n none (truncf .bf16 d hb) (k0_pay4 v2) (constant S227x227 .f32 0x00000000#32))
        (matmul dot_S227x1024_S1024x227_S227x227_1_0_0_1_n_n none (truncf .bf16 (subf d d) hb) (k0_pay4 v2) (constant S227x227 .f32 0x00000000#32)))
      (matmul dot_S227x1024_S1024x227_S227x227_1_0_0_1_n_n none (truncf .bf16 (subf (subf d d) (subf d d)) hb) (k0_pay4 v2)
        (constant S227x227 .f32 0x00000000#32))
      (ix2 xx yy) = picked v0 v2 P c xx yy := by
  have hdv : ∀ h : Fin 1024, d (ix2 xx h) = P (ix2 (pos (v0 (ix3 0 0 xx))) (lane c h)) := fun h => by
    rw [hdef]
    refine (slice2_axis1_apply o _ hsl xx h (lane c h) (by rw [lane_val, ho])).trans ?_
    exact pay5_apply v0 P Z3 Z4 hZ3 hZ4 hv0 xx (lane c h)
  refine (stage2_apply (k0_pay4 v2) d hb xx yy (pos (v2 (ix3 0 0 yy))) ?_ ?_).trans (hdv _)
  · intro h
    rw [rsel_apply]
    exact if_congr (ofNat_eq_iff h _ (hv2 _)) rfl rfl
  · intro h
    rw [hdv]
    exact hP _

variable (v0 v2 : Vec Ideal S1x1x227 .i32) (P Z3 Z4 : FVec Ideal S1024x3072 .bf16)
  (hP : ∀ i, ∃ r : ℝ, P i = (r : EReal)) (hZ3 : ∀ i, Z3 i = 0) (hZ4 : ∀ i, Z4 i = 0)
  (hv0 : ∀ i, (v0 i).toNat < 1024) (hv2 : ∀ i, (v2 i).toNat < 1024)

include hP hZ3 hZ4 hv0 hv2

/-- Channel 0. -/
theorem pay1_apply (xx yy : Fin 227) :
    k0_pay1 (F := Ideal) (k0_pay8 v0 v2 P Z3 Z4) (k0_pay9 v0 v2 P Z3 Z4) (ix4 0 0 xx yy) = picked v0 v2 P 0 xx yy := by
  unfold k0_pay1
  refine (shapeCast_ab_11ab_apply _ shapeCasts_S227x227_S1x1x227x227 xx yy).trans ?_
  have ho : 0 = (0 : Fin 3).val * 1024 := by decide
  have hd : k0_pay6 (F := Ideal) v0 P Z3 Z4
      = extractStridedSlice S227x1024 ![0, 0] (k0_pay5 (F := Ideal) v0 P Z3 Z4) slices_S227x3072_o0_0_S227x1024 := rfl
  unfold k0_pay8 k0_pay9 k0_pay7
  exact chan_apply v0 v2 P Z3 Z4 hP hZ3 hZ4 hv0 hv2 0 0 ho slices_S227x3072_o0_0_S227x1024 _ hd bitsLt_bf16_f32 xx yy

/-- Channel 1. -/
theorem pay2_apply (xx yy : Fin 227) :
    k0_pay2 (F := Ideal) (k0_pay4 v2) (k0_pay5 v0 P Z3 Z4) (ix4 0 0 xx yy) = picked v0 v2 P 1 xx yy := by
  unfold k0_pay2
  refine (shapeCast_ab_11ab_apply _ shapeCasts_S227x227_S1x1x227x227 xx yy).trans ?_
  have ho : 1024 = (1 : Fin 3).val * 1024 := by decide
  exact chan_apply v0 v2 P Z3 Z4 hP hZ3 hZ4 hv0 hv2 1 1024 ho slices_S227x3072_o0_1024_S227x1024 _ rfl bitsLt_bf16_f32 xx yy

/-- Channel 2. -/
theorem pay3_apply (xx yy : Fin 227) :
    k0_pay3 (F := Ideal) (k0_pay4 v2) (k0_pay5 v0 P Z3 Z4) (ix4 0 0 xx yy) = picked v0 v2 P 2 xx yy := by
  unfold k0_pay3
  refine (shapeCast_ab_11ab_apply _ shapeCasts_S227x227_S1x1x227x227 xx yy).trans ?_
  have ho : 2048 = (2 : Fin 3).val * 1024 := by decide
  exact chan_apply v0 v2 P Z3 Z4 hP hZ3 hZ4 hv0 hv2 2 2048 ho slices_S227x3072_o0_2048_S227x1024 _ rfl bitsLt_bf16_f32 xx yy

end Cert.KernelIdeal.Payload
end
-- ==== Proof.Finite.lean ====
/-
  The precondition read back: every entry of the image is a real number.

  `finite_inputs` is `all (|im| < +inf)`; on the extended reals `|x| = max x (-x)`, and `max x (-x) < ⊤` rules out
  both infinities.
-/
import proofs.«425383_j3822520893488_3_alg».proof.Pre_finite_inputs
import proofs.«425383_j3822520893488_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

instance : Subsingleton S_.Idx := ⟨fun a b => funext fun d => d.elim0⟩

/-- The word of `+inf` denotes the top of the extended reals. -/
theorem inf_word : Ideal.ofBits .f32 0x7F800000#32 = (⊤ : EReal) := by
  simp [Ideal.ofBits, Ideal.ieee]

/-- An extended real whose absolute value is below `⊤` is a real number. -/
theorem real_of_abs_lt_top (x : EReal) (h : max x (-x) < ⊤) : ∃ v : ℝ, x = (v : EReal) := by
  induction x using EReal.rec with
  | bot => simp at h
  | coe v => exact ⟨v, rfl⟩
  | top => simp at h

/-- Under the precondition every entry of the image is a real number. -/
theorem real_of_pre (x : FVec Ideal S1024x1024x3 .f32) (r : IVec S1024x4 32)
    (h : Cert.Pre_finite_inputs.fn (F := Ideal) x r = fun _ => 1#1) (i : S1024x1024x3.Idx) :
    ∃ v : ℝ, x i = (v : EReal) := by
  have h0 := congrFun h ix0
  dsimp only [Cert.Pre_finite_inputs.fn] at h0
  have hi := Host.reduce_andi_all _ _ _ _ _ h0 i
  apply real_of_abs_lt_top
  have hlt : max (x i) (-(x i)) < Ideal.ofBits .f32 0x7F800000#32 := by
    by_contra hc
    have : (cmpf (F := Ideal) .olt (Host.absf x) (broadcastInDim S1024x1024x3 ![] Facts.bcast_S_S1024x1024x3 (constant S_ .f32 0x7F800000#32))) i = 0#1 := by
      show BitVec.ofBool (decide (max (x i) (-(x i)) < Ideal.ofBits .f32 0x7F800000#32)) = 0#1
      rw [decide_eq_false hc]; rfl
    rw [this] at hi
    exact absurd hi (by decide)
  rwa [inf_word] at hlt

end Cert.Finite

end
-- ==== Proof.KernelValue.lean ====
/-
  The kernel's result array as one function of the arguments.

  Grid point `n` stages box `n`'s row of source columns and row of source rows (blocks `[n, 0, :]` of the two index
  tables) and the three whole planes of the image's split, and writes back block `[n, :, :, :]` of the result. The
  body's three stores tile that block by channel; each stored value, read at an index, is one entry of the leading
  plane (the residue planes vanish on a finite image), that is one entry of the image:
  `out[n, c, xx, yy] = im[rows[n, yy], cols[n, xx], c]`. The 1024 blocks cover the result array.
-/
import proofs.«425383_j3822520893488_3_alg».proof.Proof.KIValue
import proofs.«425383_j3822520893488_3_alg».proof.Proof.KernelHostCols
import proofs.«425383_j3822520893488_3_alg».proof.Proof.KernelHostRows
import proofs.«425383_j3822520893488_3_alg».proof.Proof.KernelHostHi
import proofs.«425383_j3822520893488_3_alg».proof.Proof.KernelHostMid
import proofs.«425383_j3822520893488_3_alg».proof.Proof.KernelHostLo
import proofs.«425383_j3822520893488_3_alg».proof.Proof.ChainFacts
import proofs.«425383_j3822520893488_3_alg».proof.Proof.KernelPayload
import proofs.«425383_j3822520893488_3_alg».proof.Proof.Finite
import proofs.«425383_j3822520893488_3_alg».proof.Defs

set_option maxRecDepth 16384

noncomputable section

namespace Cert.KernelIdeal.Crop

open Cert.KernelIdeal Cert.KernelIdeal.Gen Cert.KernelIdeal.GenP Cert.KernelIdeal.ValueP
open Cert.KernelIdeal.Host Cert.KernelIdeal.Payload Cert.Warp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a box number. -/
def boxOf (t : Fin cfg0.N) : Fin 1024 := ⟨t.val, lt_of_lt_of_eq t.isLt N_0⟩

/-! ## The body's result block at an index -/

theorem emb_ch0 (xx yy : Fin 227) : ((r0_2 : Rect S1x3x227x227).emb (ix4 (0 : Fin 1) (0 : Fin 1) xx yy)) = ix4 0 0 xx yy := by
  funext a
  apply Fin.ext
  match a with
  | ⟨0, _⟩ => rfl
  | ⟨1, _⟩ => rfl
  | ⟨2, _⟩ => show 0 + 1 * xx.val = xx.val; omega
  | ⟨3, _⟩ => show 0 + 1 * yy.val = yy.val; omega
theorem emb_ch1 (xx yy : Fin 227) : ((r0_3 : Rect S1x3x227x227).emb (ix4 (0 : Fin 1) (0 : Fin 1) xx yy)) = ix4 0 1 xx yy := by
  funext a
  apply Fin.ext
  match a with
  | ⟨0, _⟩ => rfl
  | ⟨1, _⟩ => rfl
  | ⟨2, _⟩ => show 0 + 1 * xx.val = xx.val; omega
  | ⟨3, _⟩ => show 0 + 1 * yy.val = yy.val; omega
theorem emb_ch2 (xx yy : Fin 227) : ((r0_4 : Rect S1x3x227x227).emb (ix4 (0 : Fin 1) (0 : Fin 1) xx yy)) = ix4 0 2 xx yy := by
  funext a
  apply Fin.ext
  match a with
  | ⟨0, _⟩ => rfl
  | ⟨1, _⟩ => rfl
  | ⟨2, _⟩ => show 0 + 1 * xx.val = xx.val; omega
  | ⟨3, _⟩ => show 0 + 1 * yy.val = yy.val; omega

/-- The body's result block from a box's two index rows `x0`, `x1` and the planes: the three stores tile the block by
    channel, and at `(0, c, xx, yy)` the value is the leading plane at column `x0[xx]`, lane `c * 1024 + x1[yy]`. -/
theorem out_block (x0 x1 : Vec Ideal S1x1x227 .i32) (x2 x3 x4 : Vec Ideal S1024x3072 .bf16)
    (hP : ∀ i, ∃ r : ℝ, x2 i = (r : EReal)) (hZ3 : ∀ i, x3 i = 0) (hZ4 : ∀ i, x4 i = 0)
    (hx0 : ∀ i, (x0 i).toNat < 1024) (hx1 : ∀ i, (x1 i).toNat < 1024) (c : Fin 3) (xx yy : Fin 227) :
    out0_5 x0 x1 x2 x3 x4 (ix4 0 c xx yy) = picked x0 x1 x2 c xx yy := by
  unfold out0_5
  simp only [View.ld_unit_zero (S := S1x1x227) hz3, View.ld_unit_zero (S := S1024x3072) hz2]
  have hpieces : ∀ p ∈ ([⟨r0_4, k0_pay3 (k0_pay4 x1) (k0_pay5 x0 x2 x3 x4)⟩, ⟨r0_3, k0_pay2 (k0_pay4 x1) (k0_pay5 x0 x2 x3 x4)⟩,
        ⟨r0_2, k0_pay1 (k0_pay8 x0 x1 x2 x3 x4) (k0_pay9 x0 x1 x2 x3 x4)⟩] : List (View.Piece (Elt Ideal) S1x3x227x227 .f32)),
      ∀ x : p.1.shape.Idx, p.2 x = (fun y : S1x3x227x227.Idx => picked x0 x1 x2 (y 1) (y 2) (y 3)) (p.1.emb x) := by
    intro p hp x
    simp only [List.mem_cons, List.not_mem_nil, or_false] at hp
    rcases hp with rfl | rfl | rfl
    · obtain ⟨a, b, xx', yy', rfl⟩ : ∃ (a b : Fin 1) (xx' yy' : Fin 227), x = ix4 a b xx' yy' := ⟨x 0, x 1, x 2, x 3, eq_ix4 x⟩
      obtain rfl : a = 0 := Subsingleton.elim _ _
      obtain rfl : b = 0 := Subsingleton.elim _ _
      rw [emb_ch2]
      exact pay3_apply x0 x1 x2 x3 x4 hP hZ3 hZ4 hx0 hx1 xx' yy'
    · obtain ⟨a, b, xx', yy', rfl⟩ : ∃ (a b : Fin 1) (xx' yy' : Fin 227), x = ix4 a b xx' yy' := ⟨x 0, x 1, x 2, x 3, eq_ix4 x⟩
      obtain rfl : a = 0 := Subsingleton.elim _ _
      obtain rfl : b = 0 := Subsingleton.elim _ _
      rw [emb_ch1]
      exact pay2_apply x0 x1 x2 x3 x4 hP hZ3 hZ4 hx0 hx1 xx' yy'
    · obtain ⟨a, b, xx', yy', rfl⟩ : ∃ (a b : Fin 1) (xx' yy' : Fin 227), x = ix4 a b xx' yy' := ⟨x 0, x 1, x 2, x 3, eq_ix4 x⟩
      obtain rfl : a = 0 := Subsingleton.elim _ _
      obtain rfl : b = 0 := Subsingleton.elim _ _
      rw [emb_ch0]
      exact pay1_apply x0 x1 x2 x3 x4 hP hZ3 hZ4 hx0 hx1 xx' yy'
  exact View.canon_apply_of_pieces (fun y : S1x3x227x227.Idx => picked x0 x1 x2 (y 1) (y 2) (y 3)) _ hpieces (ix4 0 c xx yy)
    (cover0_5 (k0_pay3 (k0_pay4 x1) (k0_pay5 x0 x2 x3 x4)) (k0_pay2 (k0_pay4 x1) (k0_pay5 x0 x2 x3 x4)) (k0_pay1 (k0_pay8 x0 x1 x2 x3 x4) (k0_pay9 x0 x1 x2 x3 x4)) (ix4 0 c xx yy))

/-! ## The windows' blocks at a grid point -/

/-- The printed index maps, decided over the grid: the two index tables and the result move with the point along
    axis 0 and sit at 0 elsewhere; the planes' block is the whole plane. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- Box `t`'s row of source columns. -/
theorem cols_blk (c : Dev nD) (t : Fin cfg0.N) (y : S1x1x227.Idx) :
    (iblk m c 0 t : S1x1x227.Idx → BitVec 32) y = colsOf (rectsOf m c) (ix2 (boxOf t) (y 2)) := by
  show (V m c main_v49 : IVec S1024x1x227 32) (((cfg0.win 0).blk t).view.emb y) = _
  rw [V_cols]
  obtain ⟨e0, e1, e2, -⟩ := idx_facts t
  refine shapeCast_apply _ _ _ (ix2 (boxOf t) (y 2)) ?_
  rw [Shape.rowMajor_val_two, Shape.rowMajor_val_three]
  have h0 : (y 0).val < 1 := (y 0).isLt
  have h1 : (y 1).val < 1 := (y 1).isLt
  show t.val * 227 + (y 2).val = ((win0_0.index t (0 : Fin 3) * 1 + 1 * (y 0).val) * 1 + (win0_0.index t (1 : Fin 3) * 1 + 1 * (y 1).val)) * 227 + (win0_0.index t (2 : Fin 3) * 227 + 1 * (y 2).val)
  omega

/-- Box `t`'s row of source rows. -/
theorem rows_blk (c : Dev nD) (t : Fin cfg0.N) (y : S1x1x227.Idx) :
    (iblk m c 1 t : S1x1x227.Idx → BitVec 32) y = rowsOf (rectsOf m c) (ix2 (boxOf t) (y 2)) := by
  show (V m c main_v50 : IVec S1024x1x227 32) (((cfg0.win 1).blk t).view.emb y) = _
  rw [V_rows]
  obtain ⟨-, -, -, e0, e1, e2, -⟩ := idx_facts t
  refine shapeCast_apply _ _ _ (ix2 (boxOf t) (y 2)) ?_
  rw [Shape.rowMajor_val_two, Shape.rowMajor_val_three]
  have h0 : (y 0).val < 1 := (y 0).isLt
  have h1 : (y 1).val < 1 := (y 1).isLt
  show t.val * 227 + (y 2).val = ((win0_1.index t (0 : Fin 3) * 1 + 1 * (y 0).val) * 1 + (win0_1.index t (1 : Fin 3) * 1 + 1 * (y 1).val)) * 227 + (win0_1.index t (2 : Fin 3) * 227 + 1 * (y 2).val)
  omega

/-- The planes are staged whole. -/
theorem hi_blk (c : Dev nD) (t : Fin cfg0.N) (y : S1024x3072.Idx) :
    (iblk m c 2 t : S1024x3072.Idx → EReal) y = planeHi (imOf m c) y := by
  show (V m c main_v53 : FVec Ideal S1024x3072 .bf16) (((cfg0.win 2).blk t).view.emb y) = _
  rw [V_hi]
  obtain ⟨-, -, -, -, -, -, e0, e1, -⟩ := idx_facts t
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 3072 + 1 * (y 1).val = (y 1).val; omega

theorem mid_blk (c : Dev nD) (t : Fin cfg0.N) (y : S1024x3072.Idx) :
    (iblk m c 3 t : S1024x3072.Idx → EReal) y = planeMid (imOf m c) y := by
  show (V m c main_v56 : FVec Ideal S1024x3072 .bf16) (((cfg0.win 3).blk t).view.emb y) = _
  rw [V_mid]
  obtain ⟨-, -, -, -, -, -, -, -, e0, e1, -⟩ := idx_facts t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 3072 + 1 * (y 1).val = (y 1).val; omega

theorem lo_blk (c : Dev nD) (t : Fin cfg0.N) (y : S1024x3072.Idx) :
    (iblk m c 4 t : S1024x3072.Idx → EReal) y = planeLo (imOf m c) y := by
  show (V m c main_v59 : FVec Ideal S1024x3072 .bf16) (((cfg0.win 4).blk t).view.emb y) = _
  rw [V_lo]
  obtain ⟨-, -, -, -, -, -, -, -, -, -, e0, e1, -⟩ := idx_facts t
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 3072 + 1 * (y 1).val = (y 1).val; omega

/-! ## What a point writes back, and the array -/

/-- The crop of core `c`'s arguments. -/
abbrev cropOf (c : Dev nD) : FVec Ideal S1024x3x227x227 .f32 :=
  warp (imOf m c) (colsOf (rectsOf m c)) (rowsOf (rectsOf m c))

/-- WHAT POINT `t` WRITES BACK is block `t` of the crop, on a finite image. -/
theorem flushed_eq (hfin : ∀ (c : Dev nD) j, ∃ v : ℝ, imOf m c j = (v : EReal)) (c : Dev nD) (t : Fin cfg0.N) :
    (dats m 0 c).flushed 5 t = ((cfg0.win 5).blk t).view.read (Elt Ideal) (cropOf m c) := by
  rw [flushed5]
  funext y
  obtain ⟨a, cc, xx, yy, rfl⟩ : ∃ (a : Fin 1) (cc : Fin 3) (xx yy : Fin 227), y = ix4 a cc xx yy := ⟨y 0, y 1, y 2, y 3, eq_ix4 y⟩
  obtain rfl : a = 0 := Subsingleton.elim _ _
  show out0_5 (iblk m c 0 t) (iblk m c 1 t) (iblk m c 2 t) (iblk m c 3 t) (iblk m c 4 t) (ix4 0 cc xx yy)
    = cropOf m c (((cfg0.win 5).blk t).view.emb (ix4 0 cc xx yy))
  refine (out_block (iblk m c 0 t) (iblk m c 1 t) (iblk m c 2 t) (iblk m c 3 t) (iblk m c 4 t)
    (fun i => by rw [hi_blk, planeHi_apply]; exact planeOf_real _ (hfin c) i)
    (fun i => by rw [mid_blk]; exact planeMid_apply _ (hfin c) i)
    (fun i => by rw [lo_blk]; exact planeLo_apply _ (hfin c) i)
    (fun i => by rw [cols_blk]; exact colsOf_inRange _ _)
    (fun i => by rw [rows_blk]; exact rowsOf_inRange _ _) cc xx yy).trans ?_
  unfold picked
  rw [hi_blk, planeHi_apply, cols_blk, rows_blk, planeOf_apply]
  obtain ⟨-, -, -, -, -, -, -, -, -, -, -, -, e0, e1, e2, e3⟩ := idx_facts t
  have hemb : ((cfg0.win 5).blk t).view.emb (ix4 (0 : Fin 1) cc xx yy) = ix4 (boxOf t) cc xx yy := by
    funext a
    apply Fin.ext
    match a with
    | ⟨0, _⟩ => show win0_5.index t (0 : Fin 4) * 1 + 1 * 0 = t.val; omega
    | ⟨1, _⟩ => show win0_5.index t (1 : Fin 4) * 3 + 1 * cc.val = cc.val; omega
    | ⟨2, _⟩ => show win0_5.index t (2 : Fin 4) * 227 + 1 * xx.val = xx.val; omega
    | ⟨3, _⟩ => show win0_5.index t (3 : Fin 4) * 227 + 1 * yy.val = yy.val; omega
  rw [hemb]
  rfl

/-- An index of the result is in point `t`'s block iff each coordinate is in the block's range on its axis. -/
theorem mem_blk (t : Fin cfg0.N) (i : S1024x3x227x227.Idx) :
    i ∈ ((cfg0.win 5).blk t).view.set ↔ ∀ a : Fin 4, win0_5.index t a * S1x3x227x227.size a ≤ (i a).val ∧ (i a).val < win0_5.index t a * S1x3x227x227.size a + S1x3x227x227.size a := by
  show i ∈ ((View.whole main_v60).slice (win0_5.rect t)).set ↔ _
  rw [View.set_slice_whole, Rect.mem_set_unit]
  exact Iff.rfl

/-- Every index of the result is in the block of the point that is its box. -/
theorem cover (i : S1024x3x227x227.Idx) : ∃ t : Fin cfg0.N, (cfg0.win 5).flush t = true ∧ i ∈ ((cfg0.win 5).blk t).view.set := by
  have hi0 : (i 0).val < 1024 := (i 0).isLt
  have hi1 : (i 1).val < 3 := (i 1).isLt
  have hi2 : (i 2).val < 227 := (i 2).isLt
  have hi3 : (i 3).val < 227 := (i 3).isLt
  refine ⟨⟨(i 0).val, lt_of_lt_of_eq hi0 N_0.symm⟩, flush0_5 _, ?_⟩
  rw [mem_blk]
  obtain ⟨-, -, -, -, -, -, -, -, -, -, -, -, e0, e1, e2, e3⟩ := idx_facts ⟨(i 0).val, lt_of_lt_of_eq hi0 N_0.symm⟩
  intro a
  match a with
  | ⟨0, _⟩ => show win0_5.index _ (0 : Fin 4) * 1 ≤ (i 0).val ∧ (i 0).val < win0_5.index _ (0 : Fin 4) * 1 + 1; rw [e0]; constructor <;> simp
  | ⟨1, _⟩ => show win0_5.index _ (1 : Fin 4) * 3 ≤ (i 1).val ∧ (i 1).val < win0_5.index _ (1 : Fin 4) * 3 + 3; rw [e1]; omega
  | ⟨2, _⟩ => show win0_5.index _ (2 : Fin 4) * 227 ≤ (i 2).val ∧ (i 2).val < win0_5.index _ (2 : Fin 4) * 227 + 227; rw [e2]; omega
  | ⟨3, _⟩ => show win0_5.index _ (3 : Fin 4) * 227 ≤ (i 3).val ∧ (i 3).val < win0_5.index _ (3 : Fin 4) * 227 + 227; rw [e3]; omega

/-- THE ARRAY after the run is the crop. -/
theorem final (hfin : ∀ (c : Dev nD) j, ∃ v : ℝ, imOf m c j = (v : EReal)) (c : Dev nD) :
    (dats m 0 c).arrAt 5 cfg0.N = cropOf m c :=
  (dats m 0 c).arrAt_eq_of_cover 5 (cropOf m c) (fun t _ => flushed_eq m hfin c t) cover

/-- The kernel's run, read: under the precondition the result array ends at the crop of the arguments, which are
    unchanged. -/
theorem run (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v60) = cropOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m (fun c j => Cert.Finite.real_of_pre _ _ (hpre c) j) c), (h c).2⟩)
    (run_blocks m ρ)

end Cert.KernelIdeal.Crop

end
-- ==== Proof.RefTail.lean ====
/-
  The reference after its index arithmetic: jnp's `im[rows[:, None, :], cols[:, :, None], :]` then a transpose.

  The two index tables are laid along the (x, y) plane of a box — `rows` constant along x, `cols` constant along y —,
  a negative index has the axis' extent 1024 added (jnp's wrap-around of negative indices), the two planes are
  paired into a table of start indices `(row, col)`, the gather reads the image's three channels at each pair
  (start indices clamped so the one-element slice fits), and the channel axis is moved in front of the plane.
  `tail_eq`: on clamped tables that is the crop `out[n, c, xx, yy] = im[rows[n, yy], cols[n, xx], c]`.
-/
import proofs.«425383_j3822520893488_3_alg».proof.ReferenceIdeal
import proofs.«425383_j3822520893488_3_alg».proof.Proof.Gen.ReferenceIdeal
import proofs.«425383_j3822520893488_3_alg».proof.Proof.Spec
import Idealize.ShloMosaic.Lib.Pipeline.Value
import Idealize.ShloMosaic.Lib.ValueLayout
import Idealize.ShloMosaic.Lib.StableHlo.Predicate

noncomputable section

namespace Cert.ReferenceIdeal.Host

open Idealize.ShloMosaic Idealize.ShloMosaic.ValueIdx Cert.ReferenceIdeal Cert.ReferenceIdeal.Facts₀

variable {F : FTy → Type} [FloatOps F] [Facts]

/-- The table of start indices: at `(n, xx, yy)` the pair (source row of `yy`, source column of `xx`), a negative word
    having 1024 added. -/
def startIdx (cols rows : IVec S1024x227 32) : IVec S1024x227x227x2 32 :=
  let v49 : IVec S1024x1x227 32 := broadcastInDim S1024x1x227 ![0, 2] bcast_S1024x227_S1024x1x227_0_2 rows
  let v50 : IVec S1024x227x1 32 := broadcastInDim S1024x227x1 ![0, 1] bcast_S1024x227_S1024x227x1_0_1 cols
  let v51 : IVec S1024x1x227 32 := broadcastInDim S1024x1x227 ![] bcast_S_S1024x1x227 (constantI S_ 32 0#32)
  let v52 : IVec S1024x1x227 1 := cmpi .slt v49 v51
  let v53 : IVec S1024x1x227 32 := broadcastInDim S1024x1x227 ![] bcast_S_S1024x1x227 (constantI S_ 32 1024#32)
  let v54 : IVec S1024x1x227 32 := addi v49 v53
  let v55 : IVec S1024x1x227 32 := select v52 v54 v49
  let v56 : IVec S1024x227x1 32 := broadcastInDim S1024x227x1 ![] bcast_S_S1024x227x1 (constantI S_ 32 0#32)
  let v57 : IVec S1024x227x1 1 := cmpi .slt v50 v56
  let v58 : IVec S1024x227x1 32 := broadcastInDim S1024x227x1 ![] bcast_S_S1024x227x1 (constantI S_ 32 1024#32)
  let v59 : IVec S1024x227x1 32 := addi v50 v58
  let v60 : IVec S1024x227x1 32 := select v57 v59 v50
  let v61 : IVec S1024x227x227 32 := broadcastInDim S1024x227x227 ![0, 1, 2] bcast_S1024x1x227_S1024x227x227_0_1_2 v55
  let v62 : IVec S1024x227x227 32 := broadcastInDim S1024x227x227 ![0, 1, 2] bcast_S1024x227x1_S1024x227x227_0_1_2 v60
  let v63 : IVec S1024x227x227x1 32 := broadcastInDim S1024x227x227x1 ![0, 1, 2] bcast_S1024x227x227_S1024x227x227x1_0_1_2 v61
  let v64 : IVec S1024x227x227x1 32 := broadcastInDim S1024x227x227x1 ![0, 1, 2] bcast_S1024x227x227_S1024x227x227x1_0_1_2 v62
  concatenate S1024x227x227x2 3 [⟨S1024x227x227x1, v63⟩, ⟨S1024x227x227x1, v64⟩] concatenates_S1024x227x227x1_S1024x227x227x1_S1024x227x227x2_d3

/-- The gather at those start indices, channels moved in front of the plane. -/
def tail (im : FVec F S1024x1024x3 .f32) (cols rows : IVec S1024x227 32) : FVec F S1024x3x227x227 .f32 :=
  transpose S1024x3x227x227 [0, 3, 1, 2]
    (Host.gather gather_S1024x1024x3_S1024x227x227x2_S1024x227x227x3_3_01_n_n_01_3_113 im (startIdx cols rows))
    transposes_S1024x227x227x3_S1024x3x227x227_0_3_1_2

/-- jnp's wrap-around of a negative index along an axis of extent 1024. -/
def wrap (v : BitVec 32) : BitVec 32 := Scalar.select (IntOp.cmpi .slt v 0#32) (IntOp.addi v 1024#32) v

/-- Component 0 of the start index at `(n, xx, yy)`: the wrapped source row of `yy` (the row plane is constant along x). -/
theorem startIdx_row (cols rows : IVec S1024x227 32) (n : Fin 1024) (xx yy : Fin 227) :
    startIdx cols rows (ix4 n xx yy (0 : Fin 2)) = wrap (rows (ix2 n yy)) := by
  unfold startIdx
  refine (concatenate_pair_apply_left (t := S1024x227x227x2) (s₁ := S1024x227x227x1) (s₂ := S1024x227x227x1) 3 _ _ _ (ix4 n xx yy (0 : Fin 2)) rfl (ix4 n xx yy (0 : Fin 1)) ?_).trans ?_
  · intro b; match b with
    | ⟨0, _⟩ => rfl
    | ⟨1, _⟩ => rfl
    | ⟨2, _⟩ => rfl
    | ⟨3, _⟩ => rfl
  refine (broadcastInDim_apply _ _ _ _ (ix3 n xx yy) ?_).trans ?_
  · intro b; match b with
    | ⟨0, _⟩ => rfl
    | ⟨1, _⟩ => rfl
    | ⟨2, _⟩ => rfl
  refine (broadcastInDim_apply _ _ _ _ (ix3 n (0 : Fin 1) yy) ?_).trans ?_
  · intro b; match b with
    | ⟨0, _⟩ => rfl
    | ⟨1, _⟩ => rfl
    | ⟨2, _⟩ => rfl
  have e49 : broadcastInDim S1024x1x227 ![0, 2] bcast_S1024x227_S1024x1x227_0_2 rows (ix3 n (0 : Fin 1) yy) = rows (ix2 n yy) :=
    broadcastInDim_apply _ _ _ _ (ix2 n yy) (fun b => match b with | ⟨0, _⟩ => rfl | ⟨1, _⟩ => rfl)
  unfold wrap
  rw [← e49]
  rfl

/-- Component 1 of the start index at `(n, xx, yy)`: the wrapped source column of `xx` (the column plane is constant along y). -/
theorem startIdx_col (cols rows : IVec S1024x227 32) (n : Fin 1024) (xx yy : Fin 227) :
    startIdx cols rows (ix4 n xx yy (1 : Fin 2)) = wrap (cols (ix2 n xx)) := by
  unfold startIdx
  refine (concatenate_pair_apply_right (t := S1024x227x227x2) (s₁ := S1024x227x227x1) (s₂ := S1024x227x227x1) 3 _ _ _ (ix4 n xx yy (1 : Fin 2)) rfl rfl (ix4 n xx yy (0 : Fin 1)) ?_ ?_).trans ?_
  · intro b hb; match b with
    | ⟨0, _⟩ => rfl
    | ⟨1, _⟩ => rfl
    | ⟨2, _⟩ => rfl
    | ⟨3, _⟩ => exact absurd rfl hb
  · rfl
  refine (broadcastInDim_apply _ _ _ _ (ix3 n xx yy) ?_).trans ?_
  · intro b; match b with
    | ⟨0, _⟩ => rfl
    | ⟨1, _⟩ => rfl
    | ⟨2, _⟩ => rfl
  refine (broadcastInDim_apply _ _ _ _ (ix3 n xx (0 : Fin 1)) ?_).trans ?_
  · intro b; match b with
    | ⟨0, _⟩ => rfl
    | ⟨1, _⟩ => rfl
    | ⟨2, _⟩ => rfl
  have e50 : broadcastInDim S1024x227x1 ![0, 1] bcast_S1024x227_S1024x227x1_0_1 cols (ix3 n xx (0 : Fin 1)) = cols (ix2 n xx) :=
    broadcastInDim_apply _ _ _ _ (ix2 n xx) (fun b => match b with | ⟨0, _⟩ => rfl | ⟨1, _⟩ => rfl)
  unfold wrap
  rw [← e50]
  rfl

local notation "gd" => gather_S1024x1024x3_S1024x227x227x2_S1024x227x227x3_3_01_n_n_01_3_113

/-- A start index read signed and clamped so that a one-element slice fits an axis of extent 1024. -/
def clampPos (w : BitVec 32) : Fin 1024 := ⟨min w.toInt.toNat 1023, by omega⟩

/-! The gather's dimension numbers at each operand axis: axes 0 and 1 are collapsed and start-indexed (components 0 and 1
    of the start index), axis 2 is the one offset axis (result axis 3); there are no batching axes. -/

theorem mem01_0 : (0 : Fin 3) ∈ ([0, 1] : List (Fin 3)) := by decide
theorem mem01_1 : (1 : Fin 3) ∈ ([0, 1] : List (Fin 3)) := by decide
theorem not_mem01_2 : (2 : Fin 3) ∉ ([0, 1] : List (Fin 3)) := by decide

/-- Operand axis 0 (rows): the clamped component 0 of the start index at the result's batch coordinates `(n, xx, yy)`. -/
theorem operandIdx_row (idx : IVec S1024x227x227x2 32) (n : Fin 1024) (xx yy : Fin 227) (c : Fin 3) :
    ((gd).operandIdx (ix4 n xx yy c) idx (0 : Fin 3)).val = (clampPos (idx (ix4 n xx yy (0 : Fin 2)))).val := by
  show (gd).start (ix4 n xx yy c) idx 0 + (gd).batchCoord (ix4 n xx yy c) 0 + (gd).offCoord (ix4 n xx yy c) 0 = _
  have hm : (0 : Fin 3) ∈ (gd).startIndexMap := mem01_0
  rw [GatherDims.batchCoord_eq_zero _ _ _ List.not_mem_nil, Nat.add_zero,
    GatherDims.offCoord_eq_zero _ _ _ (fun h => ((GatherDims.mem_sKept _ _).mp h).1 mem01_0), Nat.add_zero]
  unfold GatherDims.start
  rw [dif_pos hm]
  have hsi : (gd).siIdx (ix4 n xx yy c) ⟨List.idxOf (0 : Fin 3) (gd).startIndexMap,
      List.idxOf_lt_length_iff.2 hm⟩ = ix4 n xx yy (0 : Fin 2) := by
    funext b; refine Fin.ext ?_
    match b with
    | ⟨0, _⟩ => rfl
    | ⟨1, _⟩ => rfl
    | ⟨2, _⟩ => rfl
    | ⟨3, _⟩ => rfl
  rw [hsi]
  rfl

/-- Operand axis 1 (columns): the clamped component 1 of that start index. -/
theorem operandIdx_col (idx : IVec S1024x227x227x2 32) (n : Fin 1024) (xx yy : Fin 227) (c : Fin 3) :
    ((gd).operandIdx (ix4 n xx yy c) idx (1 : Fin 3)).val = (clampPos (idx (ix4 n xx yy (1 : Fin 2)))).val := by
  show (gd).start (ix4 n xx yy c) idx 1 + (gd).batchCoord (ix4 n xx yy c) 1 + (gd).offCoord (ix4 n xx yy c) 1 = _
  have hm : (1 : Fin 3) ∈ (gd).startIndexMap := mem01_1
  rw [GatherDims.batchCoord_eq_zero _ _ _ List.not_mem_nil, Nat.add_zero,
    GatherDims.offCoord_eq_zero _ _ _ (fun h => ((GatherDims.mem_sKept _ _).mp h).1 mem01_1), Nat.add_zero]
  unfold GatherDims.start
  rw [dif_pos hm]
  have hsi : (gd).siIdx (ix4 n xx yy c) ⟨List.idxOf (1 : Fin 3) (gd).startIndexMap,
      List.idxOf_lt_length_iff.2 hm⟩ = ix4 n xx yy (1 : Fin 2) := by
    funext b; refine Fin.ext ?_
    match b with
    | ⟨0, _⟩ => rfl
    | ⟨1, _⟩ => rfl
    | ⟨2, _⟩ => rfl
    | ⟨3, _⟩ => rfl
  rw [hsi]
  rfl

/-- Operand axis 2 (channels): the result's offset coordinate `c`, from start 0. -/
theorem operandIdx_chan (idx : IVec S1024x227x227x2 32) (n : Fin 1024) (xx yy : Fin 227) (c : Fin 3) :
    ((gd).operandIdx (ix4 n xx yy c) idx (2 : Fin 3)).val = c.val := by
  show (gd).start (ix4 n xx yy c) idx 2 + (gd).batchCoord (ix4 n xx yy c) 2 + (gd).offCoord (ix4 n xx yy c) 2 = _
  have hm : (2 : Fin 3) ∉ (gd).startIndexMap := not_mem01_2
  have hk : (2 : Fin 3) ∈ (gd).sKept := (GatherDims.mem_sKept _ _).mpr ⟨not_mem01_2, List.not_mem_nil⟩
  rw [GatherDims.batchCoord_eq_zero _ _ _ List.not_mem_nil, Nat.add_zero]
  unfold GatherDims.start
  rw [dif_neg hm, Nat.zero_add]
  unfold GatherDims.offCoord
  rw [dif_pos hk]
  rfl

/-- The gather read at `(n, xx, yy, c)`: the image at the clamped pair of start indices, channel `c`. -/
theorem gather_apply {α : Type} (x : S1024x1024x3.Idx → α) (idx : IVec S1024x227x227x2 32) (n : Fin 1024) (xx yy : Fin 227) (c : Fin 3) :
    Host.gather gd x idx (ix4 n xx yy c)
      = x (ix3 (clampPos (idx (ix4 n xx yy (0 : Fin 2)))) (clampPos (idx (ix4 n xx yy (1 : Fin 2)))) c) := by
  unfold Host.gather
  congr 1
  funext a
  refine Fin.ext ?_
  match a with
  | ⟨0, _⟩ => exact operandIdx_row idx n xx yy c
  | ⟨1, _⟩ => exact operandIdx_col idx n xx yy c
  | ⟨2, _⟩ => exact operandIdx_chan idx n xx yy c

/-- A position (a word below 1024) is not negative: the wrap-around leaves it. -/
theorem wrap_of_lt {v : BitVec 32} (h : v.toNat < 1024) : wrap v = v := by
  unfold wrap
  have hne : ¬ IntOp.cmpi .slt v 0#32 = 1#1 := by
    intro hc
    have := (StableHlo.Predicate.slt_iff_toNat (a := v) (b := 0#32) (by omega) (by decide)).mp hc
    simp at this
  rw [eq_zero_of_ne_one hne, select_zero]

/-- A position reads the same signed, and the clamp leaves it. -/
theorem clampPos_of_lt {v : BitVec 32} (h : v.toNat < 1024) : clampPos v = Cert.Warp.pos v := by
  refine Fin.ext ?_
  rw [Cert.Warp.pos_val_of_lt h]
  show min v.toInt.toNat 1023 = v.toNat
  have := StableHlo.Predicate.toInt_eq_toNat_of_lt (a := v) (by omega)
  omega

/-- On tables of positions (every word below 1024) the reference's tail is the crop. -/
theorem tail_eq (im : FVec Ideal S1024x1024x3 .f32) (cols rows : IVec S1024x227 32)
    (hc : Cert.Warp.InRange cols) (hr : Cert.Warp.InRange rows) :
    tail (F := Ideal) im cols rows = Cert.Warp.warp im cols rows := by
  funext i
  obtain ⟨n, c, xx, yy, rfl⟩ : ∃ n c xx yy, i = ix4 n c xx yy := ⟨i 0, i 1, i 2, i 3, eq_ix4 i⟩
  rw [Cert.Warp.warp_apply]
  unfold tail
  refine (transpose_apply _ _ _ _ (ix4 n xx yy c) ?_).trans ?_
  · intro b; match b with
    | ⟨0, _⟩ => rfl
    | ⟨1, _⟩ => rfl
    | ⟨2, _⟩ => rfl
    | ⟨3, _⟩ => rfl
  rw [gather_apply, startIdx_row, startIdx_col, wrap_of_lt (hr _), wrap_of_lt (hc _),
    clampPos_of_lt (hr _), clampPos_of_lt (hc _)]

end Cert.ReferenceIdeal.Host

end
-- ==== Proof.RefRun.lean ====
/-
  The reference program's run.

  @main is a straight line of host operations once its three module-local functions — `floor_divide` (twice, each
  calling `_where`), `clip` (twice) — are unfolded at their calls and each call's record of buffers at its fields:
  128 operations, 97 in the first printed window and 31 in the second. A straight line of host operations runs to the
  fold of the operations' results over the launch contents; read at the result buffer the fold is the reference's
  tail (the wrap of negative indices, the gather and the transpose) applied to the image and to the two clamped
  index tables, which are the host arithmetic on the box table that the kernel program runs too; read at the two
  argument buffers it is what was there.
-/
import proofs.«425383_j3822520893488_3_alg».proof.ReferenceIdeal
import proofs.«425383_j3822520893488_3_alg».proof.Proof.Gen.ReferenceIdeal
import Idealize.ShloMosaic.Lib.StableHlo.Run
import Idealize.ShloMosaic.Lib.Pipeline.Frame
import proofs.«425383_j3822520893488_3_alg».proof.Proof.Gen.KernelIdeal
import proofs.«425383_j3822520893488_3_alg».proof.Proof.Chain
import proofs.«425383_j3822520893488_3_alg».proof.Proof.RefTail

noncomputable section

namespace Cert.ReferenceIdeal.Run

open Idealize.ShloMosaic Idealize.ShloMosaic.TcCoe Idealize.SL.Sem
open Cert.ReferenceIdeal Cert.ReferenceIdeal.Facts₀

variable {F : FTy → Type} [FloatOps F]

/-! ## The operations, in order, the calls unfolded -/

/-- The four columns of the box table, the padded and clipped corner and far edge of each box along both axes, the destination positions `0 … 226` laid against the column extents, their product, and the divisor 227 (43 operations). -/
abbrev ops0_0 : List (HloOp τ sig (Elt F)) :=
  [ StableHlo.unary main_arg1 main_v0 ((extractStridedSlice S1024x1 ![0, 0] · slices_S1024x4_S1024x1_0_0) : (⟨S1024x4, .i32⟩ : BufTy).Contents (Elt F) → (⟨S1024x1, .i32⟩ : BufTy).Contents (Elt F)),
    StableHlo.reshape main_v0 main_v1 rfl shapeCasts_S1024x1_S1024,
    StableHlo.unary main_arg1 main_v2 ((extractStridedSlice S1024x1 ![0, 1] · slices_S1024x4_S1024x1_0_1) : (⟨S1024x4, .i32⟩ : BufTy).Contents (Elt F) → (⟨S1024x1, .i32⟩ : BufTy).Contents (Elt F)),
    StableHlo.reshape main_v2 main_v3 rfl shapeCasts_S1024x1_S1024,
    StableHlo.unary main_arg1 main_v4 ((extractStridedSlice S1024x1 ![0, 2] · slices_S1024x4_S1024x1_0_2) : (⟨S1024x4, .i32⟩ : BufTy).Contents (Elt F) → (⟨S1024x1, .i32⟩ : BufTy).Contents (Elt F)),
    StableHlo.reshape main_v4 main_v5 rfl shapeCasts_S1024x1_S1024,
    StableHlo.unary main_arg1 main_v6 ((extractStridedSlice S1024x1 ![0, 3] · slices_S1024x4_S1024x1_0_3) : (⟨S1024x4, .i32⟩ : BufTy).Contents (Elt F) → (⟨S1024x1, .i32⟩ : BufTy).Contents (Elt F)),
    StableHlo.reshape main_v6 main_v7 rfl shapeCasts_S1024x1_S1024,
    StableHlo.nullary main_c (constantI S_ 32 16#32),
    StableHlo.unary main_c main_v8 (broadcastInDim S1024 ![] bcast_S_S1024 : (⟨S_, .i32⟩ : BufTy).Contents (Elt F) → (⟨S1024, .i32⟩ : BufTy).Contents (Elt F)),
    StableHlo.binary main_v1 main_v8 main_v9 (subi : (⟨S1024, .i32⟩ : BufTy).Contents (Elt F) → (⟨S1024, .i32⟩ : BufTy).Contents (Elt F) → (⟨S1024, .i32⟩ : BufTy).Contents (Elt F)),
    StableHlo.nullary main_c_0 (constantI S_ 32 0#32),
    StableHlo.unary main_c_0 main_v10 (broadcastInDim S1024 ![] bcast_S_S1024 : (⟨S_, .i32⟩ : BufTy).Contents (Elt F) → (⟨S1024, .i32⟩ : BufTy).Contents (Elt F)),
    StableHlo.binary main_v10 main_v9 main_v11 (maxsi : (⟨S1024, .i32⟩ : BufTy).Contents (Elt F) → (⟨S1024, .i32⟩ : BufTy).Contents (Elt F) → (⟨S1024, .i32⟩ : BufTy).Contents (Elt F)),
    StableHlo.binary main_v1 main_v5 main_v12 (addi : (⟨S1024, .i32⟩ : BufTy).Contents (Elt F) → (⟨S1024, .i32⟩ : BufTy).Contents (Elt F) → (⟨S1024, .i32⟩ : BufTy).Contents (Elt F)),
    StableHlo.nullary main_c_1 (constantI S_ 32 16#32),
    StableHlo.unary main_c_1 main_v13 (broadcastInDim S1024 ![] bcast_S_S1024 : (⟨S_, .i32⟩ : BufTy).Contents (Elt F) → (⟨S1024, .i32⟩ : BufTy).Contents (Elt F)),
    StableHlo.binary main_v12 main_v13 main_v14 (addi : (⟨S1024, .i32⟩ : BufTy).Contents (Elt F) → (⟨S1024, .i32⟩ : BufTy).Contents (Elt F) → (⟨S1024, .i32⟩ : BufTy).Contents (Elt F)),
    StableHlo.nullary main_c_2 (constantI S_ 32 1024#32),
    StableHlo.unary main_c_2 main_v15 (broadcastInDim S1024 ![] bcast_S_S1024 : (⟨S_, .i32⟩ : BufTy).Contents (Elt F) → (⟨S1024, .i32⟩ : BufTy).Contents (Elt F)),
    StableHlo.binary main_v15 main_v14 main_v16 (minsi : (⟨S1024, .i32⟩ : BufTy).Contents (Elt F) → (⟨S1024, .i32⟩ : BufTy).Contents (Elt F) → (⟨S1024, .i32⟩ : BufTy).Contents (Elt F)),
    StableHlo.nullary main_c_3 (constantI S_ 32 16#32),
    StableHlo.unary main_c_3 main_v17 (broadcastInDim S1024 ![] bcast_S_S1024 : (⟨S_, .i32⟩ : BufTy).Contents (Elt F) → (⟨S1024, .i32⟩ : BufTy).Contents (Elt F)),
    StableHlo.binary main_v3 main_v17 main_v18 (subi : (⟨S1024, .i32⟩ : BufTy).Contents (Elt F) → (⟨S1024, .i32⟩ : BufTy).Contents (Elt F) → (⟨S1024, .i32⟩ : BufTy).Contents (Elt F)),
    StableHlo.nullary main_c_4 (constantI S_ 32 0#32),
    StableHlo.unary main_c_4 main_v19 (broadcastInDim S1024 ![] bcast_S_S1024 : (⟨S_, .i32⟩ : BufTy).Contents (Elt F) → (⟨S1024, .i32⟩ : BufTy).Contents (Elt F)),
    StableHlo.binary main_v19 main_v18 main_v20 (maxsi : (⟨S1024, .i32⟩ : BufTy).Contents (Elt F) → (⟨S1024, .i32⟩ : BufTy).Contents (Elt F) → (⟨S1024, .i32⟩ : BufTy).Contents (Elt F)),
    StableHlo.binary main_v3 main_v7 main_v21 (addi : (⟨S1024, .i32⟩ : BufTy).Contents (Elt F) → (⟨S1024, .i32⟩ : BufTy).Contents (Elt F) → (⟨S1024, .i32⟩ : BufTy).Contents (Elt F)),
    StableHlo.nullary main_c_5 (constantI S_ 32 16#32),
    StableHlo.unary main_c_5 main_v22 (broadcastInDim S1024 ![] bcast_S_S1024 : (⟨S_, .i32⟩ : BufTy).Contents (Elt F) → (⟨S1024, .i32⟩ : BufTy).Contents (Elt F)),
    StableHlo.binary main_v21 main_v22 main_v23 (addi : (⟨S1024, .i32⟩ : BufTy).Contents (Elt F) → (⟨S1024, .i32⟩ : BufTy).Contents (Elt F) → (⟨S1024, .i32⟩ : BufTy).Contents (Elt F)),
    StableHlo.nullary main_c_6 (constantI S_ 32 1024#32),
    StableHlo.unary main_c_6 main_v24 (broadcastInDim S1024 ![] bcast_S_S1024 : (⟨S_, .i32⟩ : BufTy).Contents (Elt F) → (⟨S1024, .i32⟩ : BufTy).Contents (Elt F)),
    StableHlo.binary main_v24 main_v23 main_v25 (minsi : (⟨S1024, .i32⟩ : BufTy).Contents (Elt F) → (⟨S1024, .i32⟩ : BufTy).Contents (Elt F) → (⟨S1024, .i32⟩ : BufTy).Contents (Elt F)),
    StableHlo.nullary main_v26 (iotaInDim S227 32 0),
    StableHlo.unary main_v11 main_v27 (broadcastInDim S1024x1 ![0] bcast_S1024_S1024x1_0 : (⟨S1024, .i32⟩ : BufTy).Contents (Elt F) → (⟨S1024x1, .i32⟩ : BufTy).Contents (Elt F)),
    StableHlo.unary main_v26 main_v28 (broadcastInDim S1x227 ![1] bcast_S227_S1x227_1 : (⟨S227, .i32⟩ : BufTy).Contents (Elt F) → (⟨S1x227, .i32⟩ : BufTy).Contents (Elt F)),
    StableHlo.binary main_v16 main_v11 main_v29 (subi : (⟨S1024, .i32⟩ : BufTy).Contents (Elt F) → (⟨S1024, .i32⟩ : BufTy).Contents (Elt F) → (⟨S1024, .i32⟩ : BufTy).Contents (Elt F)),
    StableHlo.unary main_v29 main_v30 (broadcastInDim S1024x1 ![0] bcast_S1024_S1024x1_0 : (⟨S1024, .i32⟩ : BufTy).Contents (Elt F) → (⟨S1024x1, .i32⟩ : BufTy).Contents (Elt F)),
    StableHlo.unary main_v28 main_v31 (broadcastInDim S1024x227 ![0, 1] bcast_S1x227_S1024x227_0_1 : (⟨S1x227, .i32⟩ : BufTy).Contents (Elt F) → (⟨S1024x227, .i32⟩ : BufTy).Contents (Elt F)),
    StableHlo.unary main_v30 main_v32 (broadcastInDim S1024x227 ![0, 1] bcast_S1024x1_S1024x227_0_1 : (⟨S1024x1, .i32⟩ : BufTy).Contents (Elt F) → (⟨S1024x227, .i32⟩ : BufTy).Contents (Elt F)),
    StableHlo.binary main_v31 main_v32 main_v33 (muli : (⟨S1024x227, .i32⟩ : BufTy).Contents (Elt F) → (⟨S1024x227, .i32⟩ : BufTy).Contents (Elt F) → (⟨S1024x227, .i32⟩ : BufTy).Contents (Elt F)),
    StableHlo.nullary main_c_7 (constantI S_ 32 227#32) ]

theorem ops0_0_sub : (ops0_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub ..⟩

/-- The floor division of the column products by 227: the callee's sixteen operations and the select of its own callee (17 operations). -/
abbrev ops0_1 : List (HloOp τ sig (Elt F)) :=
  [ StableHlo.TRef.unary (.of main_c_7 : StableHlo.TRef sig ⟨S_, .i32⟩) main_call0.v0 id,
    StableHlo.TRef.unary main_call0.v0 main_call0.v1 (broadcastInDim S1024x227 ![] bcast_S_S1024x227),
    StableHlo.TRef.binary (.of main_v33 : StableHlo.TRef sig ⟨S1024x227, .i32⟩) main_call0.v1 main_call0.v2 Host.divsi,
    StableHlo.TRef.unary (.of main_v33 : StableHlo.TRef sig ⟨S1024x227, .i32⟩) main_call0.v3 signi,
    StableHlo.TRef.unary main_call0.v0 main_call0.v4 signi,
    StableHlo.TRef.unary main_call0.v4 main_call0.v5 (broadcastInDim S1024x227 ![] bcast_S_S1024x227),
    StableHlo.TRef.binary main_call0.v3 main_call0.v5 main_call0.v6 (cmpi .ne),
    StableHlo.TRef.unary main_call0.v0 main_call0.v7 (broadcastInDim S1024x227 ![] bcast_S_S1024x227),
    StableHlo.TRef.binary (.of main_v33 : StableHlo.TRef sig ⟨S1024x227, .i32⟩) main_call0.v7 main_call0.v8 Host.remsi,
    StableHlo.TRef.nullary main_call0.c (constantI S_ 32 0#32),
    StableHlo.TRef.unary main_call0.c main_call0.v9 (broadcastInDim S1024x227 ![] bcast_S_S1024x227),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1024x227 ![] bcast_S_S1024x227),
    StableHlo.TRef.binary main_call0.v2 main_call0.v12 main_call0.v13 subi,
    StableHlo.TRef.ternary main_call0.v11 main_call0.v13 main_call0.v2 main_call0.call0.v0 select ]

theorem ops0_1_sub : (ops0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The column positions (corner plus quotient); the same preparation along the rows, up to the product and the divisor 227 (10 operations). -/
abbrev ops0_2 : List (HloOp τ sig (Elt F)) :=
  [ StableHlo.unary main_v27 main_v35 (broadcastInDim S1024x227 ![0, 1] bcast_S1024x1_S1024x227_0_1 : (⟨S1024x1, .i32⟩ : BufTy).Contents (Elt F) → (⟨S1024x227, .i32⟩ : BufTy).Contents (Elt F)),
    StableHlo.binary main_v35 main_v34 main_v36 (addi : (⟨S1024x227, .i32⟩ : BufTy).Contents (Elt F) → (⟨S1024x227, .i32⟩ : BufTy).Contents (Elt F) → (⟨S1024x227, .i32⟩ : BufTy).Contents (Elt F)),
    StableHlo.unary main_v20 main_v37 (broadcastInDim S1024x1 ![0] bcast_S1024_S1024x1_0 : (⟨S1024, .i32⟩ : BufTy).Contents (Elt F) → (⟨S1024x1, .i32⟩ : BufTy).Contents (Elt F)),
    StableHlo.unary main_v26 main_v38 (broadcastInDim S1x227 ![1] bcast_S227_S1x227_1 : (⟨S227, .i32⟩ : BufTy).Contents (Elt F) → (⟨S1x227, .i32⟩ : BufTy).Contents (Elt F)),
    StableHlo.binary main_v25 main_v20 main_v39 (subi : (⟨S1024, .i32⟩ : BufTy).Contents (Elt F) → (⟨S1024, .i32⟩ : BufTy).Contents (Elt F) → (⟨S1024, .i32⟩ : BufTy).Contents (Elt F)),
    StableHlo.unary main_v39 main_v40 (broadcastInDim S1024x1 ![0] bcast_S1024_S1024x1_0 : (⟨S1024, .i32⟩ : BufTy).Contents (Elt F) → (⟨S1024x1, .i32⟩ : BufTy).Contents (Elt F)),
    StableHlo.unary main_v38 main_v41 (broadcastInDim S1024x227 ![0, 1] bcast_S1x227_S1024x227_0_1 : (⟨S1x227, .i32⟩ : BufTy).Contents (Elt F) → (⟨S1024x227, .i32⟩ : BufTy).Contents (Elt F)),
    StableHlo.unary main_v40 main_v42 (broadcastInDim S1024x227 ![0, 1] bcast_S1024x1_S1024x227_0_1 : (⟨S1024x1, .i32⟩ : BufTy).Contents (Elt F) → (⟨S1024x227, .i32⟩ : BufTy).Contents (Elt F)),
    StableHlo.binary main_v41 main_v42 main_v43 (muli : (⟨S1024x227, .i32⟩ : BufTy).Contents (Elt F) → (⟨S1024x227, .i32⟩ : BufTy).Contents (Elt F) → (⟨S1024x227, .i32⟩ : BufTy).Contents (Elt F)),
    StableHlo.nullary main_c_8 (constantI S_ 32 227#32) ]

theorem ops0_2_sub : (ops0_2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub ..⟩

/-- The floor division of the row products by 227 (17 operations). -/
abbrev ops0_3 : List (HloOp τ sig (Elt F)) :=
  [ StableHlo.TRef.unary (.of main_c_8 : StableHlo.TRef sig ⟨S_, .i32⟩) main_call1.v0 id,
    StableHlo.TRef.unary main_call1.v0 main_call1.v1 (broadcastInDim S1024x227 ![] bcast_S_S1024x227),
    StableHlo.TRef.binary (.of main_v43 : StableHlo.TRef sig ⟨S1024x227, .i32⟩) main_call1.v1 main_call1.v2 Host.divsi,
    StableHlo.TRef.unary (.of main_v43 : StableHlo.TRef sig ⟨S1024x227, .i32⟩) main_call1.v3 signi,
    StableHlo.TRef.unary main_call1.v0 main_call1.v4 signi,
    StableHlo.TRef.unary main_call1.v4 main_call1.v5 (broadcastInDim S1024x227 ![] bcast_S_S1024x227),
    StableHlo.TRef.binary main_call1.v3 main_call1.v5 main_call1.v6 (cmpi .ne),
    StableHlo.TRef.unary main_call1.v0 main_call1.v7 (broadcastInDim S1024x227 ![] bcast_S_S1024x227),
    StableHlo.TRef.binary (.of main_v43 : StableHlo.TRef sig ⟨S1024x227, .i32⟩) main_call1.v7 main_call1.v8 Host.remsi,
    StableHlo.TRef.nullary main_call1.c (constantI S_ 32 0#32),
    StableHlo.TRef.unary main_call1.c main_call1.v9 (broadcastInDim S1024x227 ![] bcast_S_S1024x227),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1024x227 ![] bcast_S_S1024x227),
    StableHlo.TRef.binary main_call1.v2 main_call1.v12 main_call1.v13 subi,
    StableHlo.TRef.ternary main_call1.v11 main_call1.v13 main_call1.v2 main_call1.call0.v0 select ]

theorem ops0_3_sub : (ops0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- The row positions and the clamp's two bounds `0` and `1023` (4 operations). -/
abbrev ops0_4 : List (HloOp τ sig (Elt F)) :=
  [ StableHlo.unary main_v37 main_v45 (broadcastInDim S1024x227 ![0, 1] bcast_S1024x1_S1024x227_0_1 : (⟨S1024x1, .i32⟩ : BufTy).Contents (Elt F) → (⟨S1024x227, .i32⟩ : BufTy).Contents (Elt F)),
    StableHlo.binary main_v45 main_v44 main_v46 (addi : (⟨S1024x227, .i32⟩ : BufTy).Contents (Elt F) → (⟨S1024x227, .i32⟩ : BufTy).Contents (Elt F) → (⟨S1024x227, .i32⟩ : BufTy).Contents (Elt F)),
    StableHlo.nullary main_c_9 (constantI S_ 32 0#32),
    StableHlo.nullary main_c_10 (constantI S_ 32 1023#32) ]

theorem ops0_4_sub : (ops0_4 : List (HloOp τ sig (Elt F))).Forall fun op => op.bufs ⊆ StableHlo.tcRefs τ sig :=
  ⟨StableHlo.unary_bufs_sub .., StableHlo.binary_bufs_sub .., StableHlo.nullary_bufs_sub .., StableHlo.nullary_bufs_sub ..⟩

/-- The clamp of the column positions to `[0, 1023]` (6 operations). -/
abbrev ops0_5 : List (HloOp τ sig (Elt F)) :=
  [ StableHlo.TRef.unary (.of main_c_9 : StableHlo.TRef sig ⟨S_, .i32⟩) main_call2.v0 id,
    StableHlo.TRef.unary main_call2.v0 main_call2.v1 (broadcastInDim S1024x227 ![] bcast_S_S1024x227),
    StableHlo.TRef.binary main_call2.v1 (.of main_v36 : StableHlo.TRef sig ⟨S1024x227, .i32⟩) main_call2.v2 maxsi,
    StableHlo.TRef.unary (.of main_c_10 : StableHlo.TRef sig ⟨S_, .i32⟩) main_call2.v3 id,
    StableHlo.TRef.unary main_call2.v3 main_call2.v4 (broadcastInDim S1024x227 ![] bcast_S_S1024x227),
    StableHlo.TRef.binary main_call2.v4 main_call2.v2 main_call2.v5 minsi ]

theorem ops0_5_sub : (ops0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- The second clamp's bounds `0` and `1023` (2 operations). -/
abbrev ops1_0 : List (HloOp τ sig (Elt F)) :=
  [ StableHlo.nullary main_c_11 (constantI S_ 32 0#32),
    StableHlo.nullary main_c_12 (constantI S_ 32 1023#32) ]

theorem ops1_0_sub : (ops1_0 : List (HloOp τ sig (Elt F))).Forall fun op => op.bufs ⊆ StableHlo.tcRefs τ sig :=
  ⟨StableHlo.nullary_bufs_sub .., StableHlo.nullary_bufs_sub ..⟩

/-- The clamp of the row positions to `[0, 1023]` (6 operations). -/
abbrev ops1_1 : List (HloOp τ sig (Elt F)) :=
  [ StableHlo.TRef.unary (.of main_c_11 : StableHlo.TRef sig ⟨S_, .i32⟩) main_call3.v0 id,
    StableHlo.TRef.unary main_call3.v0 main_call3.v1 (broadcastInDim S1024x227 ![] bcast_S_S1024x227),
    StableHlo.TRef.binary main_call3.v1 (.of main_v46 : StableHlo.TRef sig ⟨S1024x227, .i32⟩) main_call3.v2 maxsi,
    StableHlo.TRef.unary (.of main_c_12 : StableHlo.TRef sig ⟨S_, .i32⟩) main_call3.v3 id,
    StableHlo.TRef.unary main_call3.v3 main_call3.v4 (broadcastInDim S1024x227 ![] bcast_S_S1024x227),
    StableHlo.TRef.binary main_call3.v4 main_call3.v2 main_call3.v5 minsi ]

theorem ops1_1_sub : (ops1_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- The two tables laid along the plane of a box — the rows constant along x, the columns constant along y —, a negative word wrapped by 1024, each plane given a trailing unit axis (20 operations). -/
abbrev ops1_2 : List (HloOp τ sig (Elt F)) :=
  [ StableHlo.unary main_v48 main_v49 (broadcastInDim S1024x1x227 ![0, 2] bcast_S1024x227_S1024x1x227_0_2 : (⟨S1024x227, .i32⟩ : BufTy).Contents (Elt F) → (⟨S1024x1x227, .i32⟩ : BufTy).Contents (Elt F)),
    StableHlo.unary main_v47 main_v50 (broadcastInDim S1024x227x1 ![0, 1] bcast_S1024x227_S1024x227x1_0_1 : (⟨S1024x227, .i32⟩ : BufTy).Contents (Elt F) → (⟨S1024x227x1, .i32⟩ : BufTy).Contents (Elt F)),
    StableHlo.nullary main_c_13 (constantI S_ 32 0#32),
    StableHlo.unary main_c_13 main_v51 (broadcastInDim S1024x1x227 ![] bcast_S_S1024x1x227 : (⟨S_, .i32⟩ : BufTy).Contents (Elt F) → (⟨S1024x1x227, .i32⟩ : BufTy).Contents (Elt F)),
    StableHlo.binary main_v49 main_v51 main_v52 (cmpi .slt : (⟨S1024x1x227, .i32⟩ : BufTy).Contents (Elt F) → (⟨S1024x1x227, .i32⟩ : BufTy).Contents (Elt F) → (⟨S1024x1x227, .i1⟩ : BufTy).Contents (Elt F)),
    StableHlo.nullary main_c_14 (constantI S_ 32 1024#32),
    StableHlo.unary main_c_14 main_v53 (broadcastInDim S1024x1x227 ![] bcast_S_S1024x1x227 : (⟨S_, .i32⟩ : BufTy).Contents (Elt F) → (⟨S1024x1x227, .i32⟩ : BufTy).Contents (Elt F)),
    StableHlo.binary main_v49 main_v53 main_v54 (addi : (⟨S1024x1x227, .i32⟩ : BufTy).Contents (Elt F) → (⟨S1024x1x227, .i32⟩ : BufTy).Contents (Elt F) → (⟨S1024x1x227, .i32⟩ : BufTy).Contents (Elt F)),
    StableHlo.ternary main_v52 main_v54 main_v49 main_v55 (select : (⟨S1024x1x227, .i1⟩ : BufTy).Contents (Elt F) → (⟨S1024x1x227, .i32⟩ : BufTy).Contents (Elt F) → (⟨S1024x1x227, .i32⟩ : BufTy).Contents (Elt F) → (⟨S1024x1x227, .i32⟩ : BufTy).Contents (Elt F)),
    StableHlo.nullary main_c_15 (constantI S_ 32 0#32),
    StableHlo.unary main_c_15 main_v56 (broadcastInDim S1024x227x1 ![] bcast_S_S1024x227x1 : (⟨S_, .i32⟩ : BufTy).Contents (Elt F) → (⟨S1024x227x1, .i32⟩ : BufTy).Contents (Elt F)),
    StableHlo.binary main_v50 main_v56 main_v57 (cmpi .slt : (⟨S1024x227x1, .i32⟩ : BufTy).Contents (Elt F) → (⟨S1024x227x1, .i32⟩ : BufTy).Contents (Elt F) → (⟨S1024x227x1, .i1⟩ : BufTy).Contents (Elt F)),
    StableHlo.nullary main_c_16 (constantI S_ 32 1024#32),
    StableHlo.unary main_c_16 main_v58 (broadcastInDim S1024x227x1 ![] bcast_S_S1024x227x1 : (⟨S_, .i32⟩ : BufTy).Contents (Elt F) → (⟨S1024x227x1, .i32⟩ : BufTy).Contents (Elt F)),
    StableHlo.binary main_v50 main_v58 main_v59 (addi : (⟨S1024x227x1, .i32⟩ : BufTy).Contents (Elt F) → (⟨S1024x227x1, .i32⟩ : BufTy).Contents (Elt F) → (⟨S1024x227x1, .i32⟩ : BufTy).Contents (Elt F)),
    StableHlo.ternary main_v57 main_v59 main_v50 main_v60 (select : (⟨S1024x227x1, .i1⟩ : BufTy).Contents (Elt F) → (⟨S1024x227x1, .i32⟩ : BufTy).Contents (Elt F) → (⟨S1024x227x1, .i32⟩ : BufTy).Contents (Elt F) → (⟨S1024x227x1, .i32⟩ : BufTy).Contents (Elt F)),
    StableHlo.unary main_v55 main_v61 (broadcastInDim S1024x227x227 ![0, 1, 2] bcast_S1024x1x227_S1024x227x227_0_1_2 : (⟨S1024x1x227, .i32⟩ : BufTy).Contents (Elt F) → (⟨S1024x227x227, .i32⟩ : BufTy).Contents (Elt F)),
    StableHlo.unary main_v60 main_v62 (broadcastInDim S1024x227x227 ![0, 1, 2] bcast_S1024x227x1_S1024x227x227_0_1_2 : (⟨S1024x227x1, .i32⟩ : BufTy).Contents (Elt F) → (⟨S1024x227x227, .i32⟩ : BufTy).Contents (Elt F)),
    StableHlo.unary main_v61 main_v63 (broadcastInDim S1024x227x227x1 ![0, 1, 2] bcast_S1024x227x227_S1024x227x227x1_0_1_2 : (⟨S1024x227x227, .i32⟩ : BufTy).Contents (Elt F) → (⟨S1024x227x227x1, .i32⟩ : BufTy).Contents (Elt F)),
    StableHlo.unary main_v62 main_v64 (broadcastInDim S1024x227x227x1 ![0, 1, 2] bcast_S1024x227x227_S1024x227x227x1_0_1_2 : (⟨S1024x227x227, .i32⟩ : BufTy).Contents (Elt F) → (⟨S1024x227x227x1, .i32⟩ : BufTy).Contents (Elt F)) ]

theorem ops1_2_sub : (ops1_2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub ..⟩

/-- The two planes paired into start indices, the gather of the image at them, and the transpose that puts the channels first (3 operations). -/
abbrev ops1_3 : List (HloOp τ sig (Elt F)) :=
  [ StableHlo.binary main_v63 main_v64 main_v65 ((fun a b => concatenate S1024x227x227x2 3 [⟨S1024x227x227x1, a⟩, ⟨S1024x227x227x1, b⟩] concatenates_S1024x227x227x1_S1024x227x227x1_S1024x227x227x2_d3) : (⟨S1024x227x227x1, .i32⟩ : BufTy).Contents (Elt F) → (⟨S1024x227x227x1, .i32⟩ : BufTy).Contents (Elt F) → (⟨S1024x227x227x2, .i32⟩ : BufTy).Contents (Elt F)),
    StableHlo.binary main_arg0 main_v65 main_v66 ((fun x i => Host.gather gather_S1024x1024x3_S1024x227x227x2_S1024x227x227x3_3_01_n_n_01_3_113 x i) : (⟨S1024x1024x3, .f32⟩ : BufTy).Contents (Elt F) → (⟨S1024x227x227x2, .i32⟩ : BufTy).Contents (Elt F) → (⟨S1024x227x227x3, .f32⟩ : BufTy).Contents (Elt F)),
    StableHlo.unary main_v66 main_v67 ((transpose S1024x3x227x227 [0, 3, 1, 2] · transposes_S1024x227x227x3_S1024x3x227x227_0_3_1_2) : (⟨S1024x227x227x3, .f32⟩ : BufTy).Contents (Elt F) → (⟨S1024x3x227x227, .f32⟩ : BufTy).Contents (Elt F)) ]

theorem ops1_3_sub : (ops1_3 : List (HloOp τ sig (Elt F))).Forall fun op => op.bufs ⊆ StableHlo.tcRefs τ sig :=
  ⟨StableHlo.binary_bufs_sub .., StableHlo.binary_bufs_sub .., StableHlo.unary_bufs_sub ..⟩

/-- The first window's 97 operations. -/
abbrev ops0 : List (HloOp τ sig (Elt F)) := ops0_0 ++ (ops0_1 ++ (ops0_2 ++ (ops0_3 ++ (ops0_4 ++ ops0_5))))
/-- The second window's operations before the start indices are paired: 28. -/
abbrev ops1a : List (HloOp τ sig (Elt F)) := ops1_0 ++ (ops1_1 ++ ops1_2)
/-- The second window's 31 operations. -/
abbrev ops1 : List (HloOp τ sig (Elt F)) := ops1a ++ ops1_3
/-- @main's 128 operations. -/
abbrev ops : List (HloOp τ sig (Elt F)) := ops0 ++ ops1

theorem ops0_sub : (ops0 : List (HloOp τ sig (Elt F))).Forall fun op => op.bufs ⊆ StableHlo.tcRefs τ sig :=
  List.forall_append.2 ⟨ops0_0_sub, List.forall_append.2 ⟨ops0_1_sub, List.forall_append.2 ⟨ops0_2_sub,
    List.forall_append.2 ⟨ops0_3_sub, List.forall_append.2 ⟨ops0_4_sub, ops0_5_sub⟩⟩⟩⟩⟩

theorem ops1_sub : (ops1 : List (HloOp τ sig (Elt F))).Forall fun op => op.bufs ⊆ StableHlo.tcRefs τ sig :=
  List.forall_append.2 ⟨List.forall_append.2 ⟨ops1_0_sub, List.forall_append.2 ⟨ops1_1_sub, ops1_2_sub⟩⟩, ops1_3_sub⟩

theorem ops_sub : (ops : List (HloOp τ sig (Elt F))).Forall fun op => op.bufs ⊆ StableHlo.tcRefs τ sig :=
  List.forall_append.2 ⟨ops0_sub, ops1_sub⟩

/-! ## @main is that straight line -/

set_option maxHeartbeats 8000000 in
set_option maxRecDepth 8192 in
/-- The first window: the callees' definitions unfolded at the three calls and the records at their fields, both sides
    are one chain of steps once sequencing is reassociated. -/
theorem main_part0_eq (c : Dev nD) : main_part0 (F := F) c = StableHlo.seq ops0 := by
  simp only [main_part0, fn_floor_divide.body, fn_where.body, fn_clip.body, ops0, StableHlo.seq_append, StableHlo.seq,
    bind_assoc, pure_bind]

set_option maxHeartbeats 8000000 in
set_option maxRecDepth 8192 in
/-- The second window, the same way. -/
theorem main_part1_eq (c : Dev nD) : main_part1 (F := F) c = StableHlo.seq ops1 := by
  simp only [main_part1, fn_clip.body, ops1, ops1a, StableHlo.seq_append, StableHlo.seq, bind_assoc, pure_bind]

/-- @main runs its two windows in order. -/
theorem main_eq (c : Dev nD) : main (F := F) c = StableHlo.seq ops := by
  show (main_part0 (F := F) c >>= fun _ => main_part1 (F := F) c) = StableHlo.seq (ops0 ++ ops1)
  rw [main_part0_eq, main_part1_eq]
  exact (StableHlo.seq_append ops0 ops1).symm

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-! ## What the fold holds

Each operation's result is read at its own buffer as its function of the operands' contents and at any other buffer as
what was there; read that way from the result buffer down, the fold is a term over the two arguments' contents. The
callees' operations move their values along the equation between a typed reference's type and its buffer's, which is the
identity at these literal references. What is left is, operation for operation, the term the definitions of the index
tables and of the tail unfold to. -/

/-- The rows' plane of the start indices: the source row of `yy` at `(n, xx, yy, 0)`, a negative word having 1024 added. -/
def idxRows (rows : IVec S1024x227 32) : IVec S1024x227x227x1 32 :=
  let v49 : IVec S1024x1x227 32 := broadcastInDim S1024x1x227 ![0, 2] bcast_S1024x227_S1024x1x227_0_2 rows
  let v51 : IVec S1024x1x227 32 := broadcastInDim S1024x1x227 ![] bcast_S_S1024x1x227 (constantI S_ 32 0#32)
  let v52 : IVec S1024x1x227 1 := cmpi .slt v49 v51
  let v53 : IVec S1024x1x227 32 := broadcastInDim S1024x1x227 ![] bcast_S_S1024x1x227 (constantI S_ 32 1024#32)
  let v54 : IVec S1024x1x227 32 := addi v49 v53
  let v55 : IVec S1024x1x227 32 := select v52 v54 v49
  let v61 : IVec S1024x227x227 32 := broadcastInDim S1024x227x227 ![0, 1, 2] bcast_S1024x1x227_S1024x227x227_0_1_2 v55
  broadcastInDim S1024x227x227x1 ![0, 1, 2] bcast_S1024x227x227_S1024x227x227x1_0_1_2 v61

/-- The columns' plane of the start indices: the source column of `xx` at `(n, xx, yy, 0)`, a negative word having 1024
    added. -/
def idxCols (cols : IVec S1024x227 32) : IVec S1024x227x227x1 32 :=
  let v50 : IVec S1024x227x1 32 := broadcastInDim S1024x227x1 ![0, 1] bcast_S1024x227_S1024x227x1_0_1 cols
  let v56 : IVec S1024x227x1 32 := broadcastInDim S1024x227x1 ![] bcast_S_S1024x227x1 (constantI S_ 32 0#32)
  let v57 : IVec S1024x227x1 1 := cmpi .slt v50 v56
  let v58 : IVec S1024x227x1 32 := broadcastInDim S1024x227x1 ![] bcast_S_S1024x227x1 (constantI S_ 32 1024#32)
  let v59 : IVec S1024x227x1 32 := addi v50 v58
  let v60 : IVec S1024x227x1 32 := select v57 v59 v50
  let v62 : IVec S1024x227x227 32 := broadcastInDim S1024x227x227 ![0, 1, 2] bcast_S1024x227x1_S1024x227x227_0_1_2 v60
  broadcastInDim S1024x227x227x1 ![0, 1, 2] bcast_S1024x227x227_S1024x227x227x1_0_1_2 v62

/-- The table of start indices is the two planes laid side by side along a last axis. -/
theorem startIdx_eq (cols rows : IVec S1024x227 32) :
    Cert.ReferenceIdeal.Host.startIdx cols rows
      = concatenate S1024x227x227x2 3 [⟨S1024x227x227x1, idxRows rows⟩, ⟨S1024x227x227x1, idxCols cols⟩]
          concatenates_S1024x227x227x1_S1024x227x227x1_S1024x227x227x2_d3 := rfl

/-- Everything before the two planes are paired. -/
abbrev opsPre : List (HloOp τ sig (Elt F)) := ops0 ++ ops1a

set_option maxRecDepth 16384 in
set_option maxHeartbeats 16000000 in
/-- Before the pairing, the rows' plane is that of the clamped row table of the box table. -/
theorem pre_v63 (V : Valuation τ sig (Elt F)) :
    StableHlo.after opsPre V (main_v63 : DevRef τ sig)
      = idxRows (Cert.KernelIdeal.Host.rowsOf (V (main_arg1 : DevRef τ sig))) := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']
  simp only [StableHlo.TRef.ofBuf, StableHlo.TRef.toBuf, cast_eq]
  unfold idxRows Cert.KernelIdeal.Host.rowsOf Cert.KernelIdeal.Host.clip1023 Cert.KernelIdeal.Host.srcPos
    Cert.KernelIdeal.Host.floorDiv227 Cert.KernelIdeal.Host.rectCol1 Cert.KernelIdeal.Host.rectCol3
  rfl

set_option maxRecDepth 16384 in
set_option maxHeartbeats 16000000 in
/-- Before the pairing, the columns' plane is that of the clamped column table of the box table. -/
theorem pre_v64 (V : Valuation τ sig (Elt F)) :
    StableHlo.after opsPre V (main_v64 : DevRef τ sig)
      = idxCols (Cert.KernelIdeal.Host.colsOf (V (main_arg1 : DevRef τ sig))) := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']
  simp only [StableHlo.TRef.ofBuf, StableHlo.TRef.toBuf, cast_eq]
  unfold idxCols Cert.KernelIdeal.Host.colsOf Cert.KernelIdeal.Host.clip1023 Cert.KernelIdeal.Host.srcPos
    Cert.KernelIdeal.Host.floorDiv227 Cert.KernelIdeal.Host.rectCol0 Cert.KernelIdeal.Host.rectCol2
  rfl

set_option maxRecDepth 16384 in
set_option maxHeartbeats 16000000 in
/-- No operation writes the image. -/
theorem pre_arg0 (V : Valuation τ sig (Elt F)) :
    StableHlo.after opsPre V (main_arg0 : DevRef τ sig) = V (main_arg0 : DevRef τ sig) := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']

set_option maxRecDepth 16384 in
set_option maxHeartbeats 16000000 in
/-- The last three operations: the planes paired, the gather, the transpose. -/
theorem last_v67 (V : Valuation τ sig (Elt F)) :
    StableHlo.after ops1_3 V (main_v67 : DevRef τ sig)
      = transpose S1024x3x227x227 [0, 3, 1, 2]
          (Host.gather gather_S1024x1024x3_S1024x227x227x2_S1024x227x227x3_3_01_n_n_01_3_113 (V (main_arg0 : DevRef τ sig))
            (concatenate S1024x227x227x2 3 [⟨S1024x227x227x1, V (main_v63 : DevRef τ sig)⟩, ⟨S1024x227x227x1, V (main_v64 : DevRef τ sig)⟩]
              concatenates_S1024x227x227x1_S1024x227x227x1_S1024x227x227x2_d3))
          transposes_S1024x227x227x3_S1024x3x227x227_0_3_1_2 := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']

/-- The fold at the result buffer: the reference's tail at the image and the two clamped index tables of the box table. -/
theorem out_eq (V : Valuation τ sig (Elt F)) :
    StableHlo.after ops V (main_v67 : DevRef τ sig)
      = Cert.ReferenceIdeal.Host.tail (V (main_arg0 : DevRef τ sig)) (Cert.KernelIdeal.Host.colsOf (V (main_arg1 : DevRef τ sig)))
          (Cert.KernelIdeal.Host.rowsOf (V (main_arg1 : DevRef τ sig))) := by
  have h : (ops : List (HloOp τ sig (Elt F))) = opsPre ++ ops1_3 := (List.append_assoc ops0 ops1a ops1_3).symm
  rw [h, StableHlo.after_append, last_v67, pre_v63, pre_v64, pre_arg0]
  unfold Cert.ReferenceIdeal.Host.tail
  rw [startIdx_eq]

set_option maxRecDepth 16384 in
set_option maxHeartbeats 16000000 in
/-- No operation writes the image. -/
theorem arg0_eq (V : Valuation τ sig (Elt F)) :
    StableHlo.after ops V (main_arg0 : DevRef τ sig) = V (main_arg0 : DevRef τ sig) := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']

set_option maxRecDepth 16384 in
set_option maxHeartbeats 16000000 in
/-- No operation writes the box table. -/
theorem arg1_eq (V : Valuation τ sig (Elt F)) :
    StableHlo.after ops V (main_arg1 : DevRef τ sig) = V (main_arg1 : DevRef τ sig) := by
  simp (disch := decide) only [StableHlo.after_append, StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne']

/-- The reference's run: at the compiled mesh, for any float values, from any memory with zero counters, every weakly fair
    execution of @main on the TensorCores terminates; the result buffer ends at the tail of the image and the two clamped
    index tables of the box table, and the two argument buffers end as they began. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v67) = Cert.ReferenceIdeal.Host.tail (m ((c.tc : Thread nD τ).loc main_arg0)) (Cert.KernelIdeal.Host.colsOf (m ((c.tc : Thread nD τ).loc main_arg1))) (Cert.KernelIdeal.Host.rowsOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c main_v67).trans (out_eq _), (h c main_arg0).trans (arg0_eq _), (h c main_arg1).trans (arg1_eq _)⟩)
    (run_main (F := F) m ρ)

end Cert.ReferenceIdeal.Run

end
-- ==== Proof.lean ====
/-
  The certificate of the crop-and-resize kernel against its jnp reference: `Cert.Claim`.

  Both programs compute, for each of 1024 boxes, `out[n, c, xx, yy] = im[rows[n, yy], cols[n, xx], c]` where the tables
  `cols`, `rows` of source positions come from `rects` by one integer chain that the two programs share and that ends
  in a clamp to `[0, 1023]`. The reference reads the image with a gather at those positions. The kernel selects
  instead: for a box it multiplies a 0/1 column selector into the image laid out as a plane, then a 0/1 row selector
  into each channel's slab, each product taken three times over a three-term split of its left factor (a device for
  keeping 32-bit accuracy through 16-bit products). On the extended reals a format change is the identity, so the
  split's terms are `v`, `v - v`, `(v - v) - (v - v)`: for a finite image the last two vanish and the products with
  one-hot selectors pick single entries — the kernel's array is the same crop. Finiteness of the image (the
  precondition) is used exactly there: `v - v = 0` fails at the infinities.

  The three frames: the two kernel programs' are the generated frame runs; the reference's is its run with the result dropped. `preserves`: the six format round trips
  the idealization removed, each the rule's own statement.
-/
import proofs.«425383_j3822520893488_3_alg».proof.Defs
import proofs.«425383_j3822520893488_3_alg».proof.Proof.Gen.Kernel
import proofs.«425383_j3822520893488_3_alg».proof.Proof.Gen.KernelIdeal
import proofs.«425383_j3822520893488_3_alg».proof.Proof.Gen.ReferenceIdeal
import proofs.«425383_j3822520893488_3_alg».proof.Proof.Gen.Pre_finite_inputs
import proofs.«425383_j3822520893488_3_alg».proof.Proof.KFrame
import proofs.«425383_j3822520893488_3_alg».proof.Proof.KIFrame
import proofs.«425383_j3822520893488_3_alg».proof.Proof.KernelValue
import proofs.«425383_j3822520893488_3_alg».proof.Proof.RefRun
import proofs.«425383_j3822520893488_3_alg».proof.Proof.RefTail
import proofs.«425383_j3822520893488_3_alg».proof.Proof.ChainFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Run.run (F := Ideal) m ρ)

/-- Six round trips f32 → bf16 → f32 were replaced by their operand: at the ideal instance each is the identity. -/
theorem preserves : Cert.preserves_Kernel_KernelIdeal :=
  ⟨IdealRules.truncf_extf.statement _ _ _, IdealRules.truncf_extf.statement _ _ _, IdealRules.truncf_extf.statement _ _ _,
   IdealRules.truncf_extf.statement _ _ _, IdealRules.truncf_extf.statement _ _ _, IdealRules.truncf_extf.statement _ _ _⟩

/-- Both runs end with the crop of the (agreeing) arguments: the kernel's by its value, the reference's by its run and
    the reading of its gather, the index tables being the same term of `rects` on both sides and clamped. -/
theorem algebraic : Cert.algebraic_KernelIdeal_ReferenceIdeal := by
  intro m ρ m' ρ' hpre hagree
  refine ⟨_, Cert.KernelIdeal.Crop.run m ρ hpre, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2]
  exact Cert.ReferenceIdeal.Host.tail_eq _ _ _ (Cert.KernelIdeal.Host.colsOf_inRange _) (Cert.KernelIdeal.Host.rowsOf_inRange _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
